-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) (main_arg2 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S2x32x128 : Shape := ⟨3, ![2, 32, 128]⟩
abbrev S4096x128 : Shape := ⟨2, ![4096, 128]⟩
abbrev S1x32x128 : Shape := ⟨3, ![1, 32, 128]⟩
abbrev S32x128 : Shape := ⟨2, ![32, 128]⟩
abbrev S128 : Shape := ⟨1, ![128]⟩
abbrev S1x128 : Shape := ⟨2, ![1, 128]⟩
abbrev S_ : Shape := ⟨0, ![]⟩
abbrev S32 : Shape := ⟨1, ![32]⟩

abbrev nBuf : Space → Nat
  | .hbm => 34
  | .vmem => 12
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S16777216, .i32⟩
  | .hbm, ⟨3, _⟩ => ⟨S131072x128, .f32⟩
  | .hbm, ⟨4, _⟩ => ⟨S131072x128, .i32⟩
  | .hbm, ⟨5, _⟩ => ⟨S131072x128, .i32⟩
  | .hbm, ⟨6, _⟩ => ⟨S2x32x128, .f32⟩
  | .hbm, ⟨7, _⟩ => ⟨S2x32x128, .f32⟩
  | .hbm, ⟨8, _⟩ => ⟨S_, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .i1⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S4096x128, .i32⟩
  | .local _ .vmem, ⟨5, _⟩ => ⟨S4096x128, .i32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S32x128, .f32⟩
  | .local _ .vmem, ⟨11, _⟩ => ⟨S32x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32_78 : BitVec 32 := 15#32
  let v313 : BitVec 1 := Scalar.cmpi .eq arg1 c15_i32_78
  let v314 : BitVec 32 := Scalar.extui v313
  let c0_i32_79 : BitVec 32 := 0#32
  let v315 : BitVec 1 := Scalar.cmpi .ne v314 c0_i32_79
  v315

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16777216_S131072x128 : S16777216.ShapeCasts S131072x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  reduces_S4096x128_S128 : S4096x128.Reduces [0] S128
  shapeCasts_S128_S1x128 : S128.ShapeCasts S1x128
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0 : Shape.Concatenates [S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128] S32x128 0
  shapeCasts_S32x128_S1x32x128 : S32x128.ShapeCasts S1x32x128
  inb_S1x32x128_S1x32x128_0_0_0 : ∀ a, (![0, 0, 0] : Fin 3 → Nat) a + S1x32x128.size a ≤ S1x32x128.size a
  h_S1x32x128 : 0 < S1x32x128.numel
  reducesTo_S2x32x128_S32_d0_2 : S2x32x128.ReducesTo [0, 2] S32
  h_S_ : 0 < S_.numel
  bcast_S_S32 : S_.BroadcastsInDim S32 (![] : Fin 0 → Fin S32.rank)
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .i32 = 32 ∨ (Rect.block (s := S131072x128) S4096x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S2x32x128.size a
  hwx0_3 : ∀ i : grid0.Coords, EltTy.bits .f32 = 32 ∨ (Rect.block (s := S2x32x128) S1x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128.size a ≤ S2x32x128.size a
  hwx0_4 : ∀ i : grid0.Coords, EltTy.bits .f32 = 32 ∨ (Rect.block (s := S2x32x128) S1x32x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x32x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩
abbrev S32 : Shape := ⟨1, ![32]⟩
abbrev S16777216x1 : Shape := ⟨2, ![16777216, 1]⟩

abbrev nBuf : Space → Nat
  | .hbm => 46
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S32, .f32⟩
  | .hbm, ⟨16, _⟩ => ⟨S16777216x1, .i32⟩
  | .hbm, ⟨17, _⟩ => ⟨S32, .f32⟩
  | .hbm, ⟨18, _⟩ => ⟨S_, .f32⟩
  | .hbm, ⟨19, _⟩ => ⟨S16777216, .f32⟩
  | .hbm, ⟨20, _⟩ => ⟨S_, .f32⟩
  | .hbm, ⟨21, _⟩ => ⟨S32, .f32⟩
  | .hbm, ⟨22, _⟩ => ⟨S16777216x1, .i32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .i1⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S32 : S_.BroadcastsInDim S32 (![] : Fin 0 → Fin S32.rank)
  bcast_S16777216_S16777216x1_0 : S16777216.BroadcastsInDim S16777216x1 (![0] : Fin 1 → Fin S16777216x1.rank)
  reducesTo_S32_S_d0 : S32.ReducesTo [0] S_
  h_S_ : 0 < S_.numel
  scatter_S32_S16777216x1_S16777216_n_0_0_1_wf : ScatterDims.WF S32 S16777216x1 S16777216 [] [0] [0] 1

variable [Facts₀]

def scatter_S32_S16777216x1_S16777216_n_0_0_1 : ScatterDims S32 S16777216x1 S16777216 where
  updateWindowDims := []
  insertedWindowDims := [0]
  scatterDimsToOperandDims := [0]
  indexVectorDim := 1
  wf := scatter_S32_S16777216x1_S16777216_n_0_0_1_wf

class Facts : Prop extends Facts₀ where

variable [Facts]
-- ==== Proof.Spec.lean ====
/-
  THE TWO PER-ENVIRONMENT STATISTICS, AS SUMS OVER THE FLAT BATCH AND AS SUMS OVER BLOCKS.

  A batch of N = 2^24 samples carries a logit l, a target y and an environment id. The residual of a sample is
  (sigmoid(l) - y) * l, with sigmoid(l) = 1 / (1 + exp(-l)). For an environment e the two statistics are the sum of
  the residuals over the samples whose id is e, and the number of those samples. An id is read as a signed integer;
  one that is no environment (negative, or 32 or more) belongs to no sum.

  The blocked computation lays the batch out as 131072 rows of 128 lanes, cuts the rows into 32 blocks of 4096
  rows, and for each block, environment and lane adds up the residuals (and the ones) of the block's rows whose id at
  that lane is e. Block t = 16 c + k belongs to core c; a core adds its 16 blocks up, and the lanes and the two cores
  are added last. Sample n = (t * 4096 + r) * 128 + lane sits at row r, lane `lane` of block t, so the two ways of
  adding run over the same samples once each: the extended reals under addition are a commutative monoid, and the
  equality of the two sums needs no finiteness.
-/
import Idealize.ShloMosaic.PureOps.Ideal
import Idealize.ShloMosaic.PureOps.Ideal.Laws
import Idealize.ShloMosaic.Lib.ValueIdx
import Idealize.ShloMosaic.Lib.IdealHost
import Mathlib.Data.EReal.Basic
import Mathlib.Algebra.BigOperators.Group.Finset.Basic
import Mathlib.Algebra.BigOperators.Fin
import Mathlib.Logic.Equiv.Fin.Basic

noncomputable section

open scoped BigOperators

namespace Cert.Irm

open Idealize.ShloMosaic Idealize.ShloMosaic.ValueIdx

variable {F : FTy → Type} [FloatOps F]

/-- The residual of one sample: (sigmoid(l) - y) * l, the target an integer read signed. -/
def resid (l : F .f32) (y : BitVec 32) : F .f32 :=
  FloatOps.mulf (FloatOps.subf (FloatOps.logistic l) (FloatOps.sitofp .f32 y)) l

/-- The indicator of "the id v is e" as a float: the comparison's bit widened to a word and converted. -/
def ind (e v : BitVec 32) : F .f32 := FloatOps.sitofp .f32 ((IntOp.cmpi .eq v e).setWidth 32)

/-- A flat array of the batch. -/
abbrev Flat (α : Type) : Type := (⟨1, ![16777216]⟩ : Shape).Idx → α

/-- The place in the flat batch of the sample at lane `l` of row `r` of block `t`. -/
def flatT (t : Fin 32) (r : Fin 4096) (l : Fin 128) : Fin 16777216 :=
  ⟨(t.val * 4096 + r.val) * 128 + l.val, by have := t.isLt; have := r.isLt; have := l.isLt; omega⟩

/-- Block `k` of core `c`. -/
def pt (c : Fin 2) (k : Fin 16) : Fin 32 := ⟨16 * c.val + k.val, by have := c.isLt; have := k.isLt; omega⟩

/-- One block's sum of residuals for environment `e` at lane `l`. -/
def blockSum (x : Flat EReal) (y env : Flat (BitVec 32)) (t : Fin 32) (e : Fin 32) (l : Fin 128) : EReal :=
  ∑ r : Fin 4096, ind (F := Ideal) (BitVec.ofNat 32 e.val) (env (ix1 (flatT t r l)))
    * resid (F := Ideal) (x (ix1 (flatT t r l))) (y (ix1 (flatT t r l)))

/-- One block's count for environment `e` at lane `l`. -/
def blockCnt (env : Flat (BitVec 32)) (t : Fin 32) (e : Fin 32) (l : Fin 128) : EReal :=
  ∑ r : Fin 4096, ind (F := Ideal) (BitVec.ofNat 32 e.val) (env (ix1 (flatT t r l)))

/-- The sum of the residuals of the samples whose id, read signed, is `e`. -/
def segSum (x : Flat EReal) (y env : Flat (BitVec 32)) (e : Fin 32) : EReal :=
  ∑ n : Fin 16777216, if (env (ix1 n)).toInt = (e.val : Int) then resid (F := Ideal) (x (ix1 n)) (y (ix1 n)) else 0

/-- The number of samples whose id, read signed, is `e`. -/
def segCnt (env : Flat (BitVec 32)) (e : Fin 32) : EReal :=
  ∑ n : Fin 16777216, if (env (ix1 n)).toInt = (e.val : Int) then (1 : EReal) else 0

/-! ## The indicator at the exact instance -/

/-- A word read signed is the environment number `e < 32` exactly when it is the word `e`. -/
theorem toInt_ofNat_env (e : Fin 32) : (BitVec.ofNat 32 e.val).toInt = (e.val : Int) := by
  have he := e.isLt
  rw [BitVec.toInt_eq_toNat_cond, BitVec.toNat_ofNat]
  have hm : e.val % 2 ^ 32 = e.val := Nat.mod_eq_of_lt (by omega)
  rw [hm]
  split <;> omega

theorem toInt_eq_iff (v : BitVec 32) (e : Fin 32) : v.toInt = (e.val : Int) ↔ v = BitVec.ofNat 32 e.val := by
  constructor
  · intro h
    apply BitVec.eq_of_toInt_eq
    rw [h, toInt_ofNat_env]
  · intro h
    rw [h, toInt_ofNat_env]

/-- The indicator is one where the id is `e` and zero elsewhere. -/
theorem ind_eq (e v : BitVec 32) : ind (F := Ideal) e v = if v = e then (1 : EReal) else 0 := by
  unfold ind
  show (((((IntOp.cmpi .eq v e).setWidth 32).toInt : ℝ)) : EReal) = _
  by_cases h : v = e
  · rw [if_pos h]
    have : IntOp.cmpi .eq v e = 1#1 := by simp [IntOp.cmpi, h]
    rw [this]; norm_num
  · rw [if_neg h]
    have hb : (v == e) = false := by simpa using h
    have : IntOp.cmpi .eq v e = 0#1 := by simp [IntOp.cmpi, hb]
    rw [this]; norm_num

/-- So a product with the indicator keeps the factor where the id is `e` and is zero elsewhere. -/
theorem ind_mul (e v : BitVec 32) (a : EReal) : ind (F := Ideal) e v * a = if v = e then a else 0 := by
  rw [ind_eq]; split <;> simp

/-! ## The rearrangement -/

/-- The samples of the batch, listed block by block, row by row, lane by lane. -/
def sampleEquiv : (Fin 32 × Fin 4096) × Fin 128 ≃ Fin 16777216 :=
  (finProdFinEquiv.prodCongr (Equiv.refl _)).trans finProdFinEquiv

theorem sampleEquiv_apply (t : Fin 32) (r : Fin 4096) (l : Fin 128) : sampleEquiv ((t, r), l) = flatT t r l := by
  apply Fin.ext
  simp [sampleEquiv, flatT, finProdFinEquiv]
  ring

/-- The blocks, listed core by core. -/
def ptEquiv : Fin 2 × Fin 16 ≃ Fin 32 := finProdFinEquiv

theorem ptEquiv_apply (c : Fin 2) (k : Fin 16) : ptEquiv (c, k) = pt c k := by
  apply Fin.ext
  simp [ptEquiv, pt, finProdFinEquiv]
  ring

/-- A sum over the batch, taken core by core, lane by lane, block by block, row by row. -/
theorem sum_batch {M : Type*} [AddCommMonoid M] (g : Fin 16777216 → M) :
    ∑ n, g n = ∑ c : Fin 2, ∑ l : Fin 128, ∑ k : Fin 16, ∑ r : Fin 4096, g (flatT (pt c k) r l) := by
  calc ∑ n, g n = ∑ p : (Fin 32 × Fin 4096) × Fin 128, g (sampleEquiv p) := (Equiv.sum_comp sampleEquiv g).symm
    _ = ∑ t : Fin 32, ∑ r : Fin 4096, ∑ l : Fin 128, g (flatT t r l) := by
        rw [Fintype.sum_prod_type, Fintype.sum_prod_type]; simp only [sampleEquiv_apply]
    _ = ∑ q : Fin 2 × Fin 16, ∑ r : Fin 4096, ∑ l : Fin 128, g (flatT (ptEquiv q) r l) :=
        (Equiv.sum_comp ptEquiv (fun t => ∑ r : Fin 4096, ∑ l : Fin 128, g (flatT t r l))).symm
    _ = ∑ c : Fin 2, ∑ k : Fin 16, ∑ r : Fin 4096, ∑ l : Fin 128, g (flatT (pt c k) r l) := by
        rw [Fintype.sum_prod_type]; simp only [ptEquiv_apply]
    _ = ∑ c : Fin 2, ∑ l : Fin 128, ∑ k : Fin 16, ∑ r : Fin 4096, g (flatT (pt c k) r l) := by
        refine Finset.sum_congr rfl fun c _ => ?_
        calc ∑ k : Fin 16, ∑ r : Fin 4096, ∑ l : Fin 128, g (flatT (pt c k) r l)
            = ∑ k : Fin 16, ∑ l : Fin 128, ∑ r : Fin 4096, g (flatT (pt c k) r l) :=
              Finset.sum_congr rfl fun k _ => Finset.sum_comm
          _ = ∑ l : Fin 128, ∑ k : Fin 16, ∑ r : Fin 4096, g (flatT (pt c k) r l) := Finset.sum_comm

/-- THE SUMS AGREE: the blocks' sums of residuals, added over a core's blocks, the lanes and the cores, are the sum over
    the samples whose id is `e`. -/
theorem blockSum_total (x : Flat EReal) (y env : Flat (BitVec 32)) (e : Fin 32) :
    ∑ c : Fin 2, ∑ l : Fin 128, ∑ k : Fin 16, blockSum x y env (pt c k) e l = segSum x y env e := by
  unfold segSum blockSum
  rw [sum_batch]
  refine Finset.sum_congr rfl fun c _ => Finset.sum_congr rfl fun l _ => Finset.sum_congr rfl fun k _ =>
    Finset.sum_congr rfl fun r _ => ?_
  rw [ind_mul]
  simp only [toInt_eq_iff]

/-- THE COUNTS AGREE likewise. -/
theorem blockCnt_total (env : Flat (BitVec 32)) (e : Fin 32) :
    ∑ c : Fin 2, ∑ l : Fin 128, ∑ k : Fin 16, blockCnt env (pt c k) e l = segCnt env e := by
  unfold segCnt blockCnt
  rw [sum_batch]
  refine Finset.sum_congr rfl fun c _ => Finset.sum_congr rfl fun l _ => Finset.sum_congr rfl fun k _ =>
    Finset.sum_congr rfl fun r _ => ?_
  rw [ind_eq]
  simp only [toInt_eq_iff]

end Cert.Irm

end
-- ==== Proof.Tail.lean ====
/-
  THE PENALTY FROM THE TWO STATISTICS.

  From the per-environment sums s and counts n (32 entries each) the penalty is: g = s / max(n, 1) per environment;
  g * g where n > 0 and zero elsewhere; the sum of these over the environments, divided by max(number of environments with
  n > 0, 1); times one. Both programs compute it with the same host operations in the same order, so it is carried here as
  ONE function of s and n that is never opened: the two programs' results are this function at equal arguments.
-/
import Idealize.ShloMosaic.PureOps
import Idealize.ShloMosaic.Lib.ValueIdx

noncomputable section

namespace Cert.Irm

open Idealize.ShloMosaic

variable {F : FTy → Type} [FloatOps F]

/-- The shape of the two statistics, and of the scalar result. -/
abbrev SEnv : Shape := ⟨1, ![32]⟩
abbrev SScalar : Shape := ⟨0, ![]⟩

/-- The penalty as a function of the sums `s` and the counts `n`, in the host's operations. The three side conditions
    (a scalar broadcasts to 32 entries; 32 entries reduce to a scalar; the scalar shape has an element) are properties of
    the literal shapes. -/
def penalty (hb : SScalar.BroadcastsInDim SEnv (![] : Fin 0 → Fin SEnv.rank)) (hr : SEnv.ReducesTo [0] SScalar)
    (hu : 0 < SScalar.numel) (s n : FVec F SEnv .f32) : FVec F SScalar .f32 :=
  let nonempty : IVec SEnv 1 := cmpf .ogt n (broadcastInDim SEnv ![] hb (constant SScalar .f32 0x00000000#32))
  let g : FVec F SEnv .f32 := Host.divf s (maximumf n (broadcastInDim SEnv ![] hb (constant SScalar .f32 0x3F800000#32)))
  let sq : FVec F SEnv .f32 := select nonempty (mulf g g) (broadcastInDim SEnv ![] hb (id (constant SScalar .f32 0x00000000#32)))
  let nenv : FVec F SScalar .f32 :=
    maximumf (Host.reduceAdd (uitofp .f32 nonempty) (constant SScalar .f32 0x00000000#32) hr hu) (constant SScalar .f32 0x3F800000#32)
  mulf (constant SScalar .f32 0x3F800000#32) (Host.divf (Host.reduceAdd sq (constant SScalar .f32 0x00000000#32) hr hu) nenv)

end Cert.Irm

end
-- ==== Proof.LibRowOps.lean ====
/-
  ROWS OF A TABLE GATHERED BY INDEX AND ADDED BACK BY INDEX, and the linearity that lets a matrix product pass through
  such a sum.

  A graph layer reads rows of a table `x : [N, D]` at source indices (`x[src]`, a gather of whole rows) and adds rows
  into a table at destination indices (a segment sum: a scatter with an add body). This file reads the two operations
  at one element, generically in the sizes: the gather of whole rows is the table's row at the start index, read signed
  and clamped into `[0, N − 1]`; the scatter-add of whole rows adds to element `(n, c)` the updates' elements `(e, c)`
  over the edges `e` whose index, read signed, is exactly `n` (an index outside `[0, N − 1]` hits no row). Last,
  the linearity law over the reals inside the extended reals: a row plus a sum of rows, times a matrix, is the row times
  the matrix plus the sum of the rows times the matrix. In the extended reals multiplication does not distribute over
  addition in general (`⊤ + ⊥`), so the law is stated for coerced reals, where it is the reals' own.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

/-! ## Linearity over the reals inside the extended reals -/

/-- A finite sum of coerced reals is the coercion of the real sum (the coercion `ℝ → EReal` is additive, and a finite
    sum is an iterated addition). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LINEARITY LAW. For real tables `xr : [N, A]`, `wr : [A, B]`, a source map `s` on the edges and any decidable
    relation `hit e n` ("edge `e` lands on row `n`"): the row `n` plus the sum of the source rows of the edges that
    hit `n`, multiplied by `wr`, is the product of row `n` plus the sum over those edges of the products of their
    source rows. All terms are coerced reals, so both sides are the coercion of one real number, and there the
    statement is distributivity and an exchange of two finite sums. -/
theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by
  -- every term is a coerced real: push the coercion outside, to one real number on each side
  simp only [coe_sum, ← EReal.coe_add, ← EReal.coe_mul]
  congr 1
  -- in ℝ: distribute the product over the sum, split the outer sum, exchange the two sums
  simp only [add_mul, Finset.sum_add_distrib, Finset.sum_mul]
  rw [Finset.sum_comm]

/-! ## The gather of whole rows, read at an element -/

/-- The dimension numbers of `x[src]` for a table `x : [N, D]` and start indices `src : [E, 1]`, result `[E, D]`:
    the result's axis 1 is the offset axis (a whole row of width `D`), the table's axis 0 is collapsed (slice size 1)
    and is the one axis the start index names, the index vector lies on axis 1 of the start indices. The conditions
    `wf` are decided on a program's literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the table at row `src[e, 0]`, read as a signed integer and clamped into
    `[0, N − 1]`, and column `c`. On the table's axis 0 the operand index is the clamped start (no batching axis; the
    axis is collapsed, so no offset); on axis 1 the start is `0` (the start index does not name it) and the offset is
    the result's coordinate on its one offset axis. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    -- the row: start + 0 + 0, the start read at `[e, 0]` and clamped to `N − 1`
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the column: 0 + 0 + the result's coordinate on its offset axis
    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

/-! ## The scatter-add of whole rows, read at an element -/

/-- WHERE AN UPDATE LANDS, for any scatter dimension numbers: update index `j` lands at operand index `i` exactly
    when on every operand axis the start (read signed, not clamped) plus the window coordinate is `i`'s coordinate.
    (The definition asks the sum to be inside the operand on every axis and then takes it as the index; a sum that equals
    a coordinate of an index is inside.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a segment sum of rows: operand `[N, D]`, scatter indices `[E, 1]`, updates `[E, D]`:
    the updates' axis 1 is the window axis (a whole row), the operand's axis 0 is the inserted one and the one axis the
    scatter index names, the index vector lies on axis 1 of the scatter indices. The conditions `wf` are decided on a
    program's literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

/-- On the operand's axis 0 the start of update `(e, c)` is the scatter index `dst[e, 0]`, read signed. -/
theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

/-- On the operand's axis 0, an inserted axis, the window coordinate is `0`. -/
theorem rowScatter_window0 : (rowScatterDims N E D wf).window j 0 = 0 := by
  unfold ScatterDims.window
  rw [dif_neg (fun h => (mem_kept _ _).mp h (List.mem_singleton.mpr rfl))]

/-- On the operand's axis 1 the window coordinate is the update's column. -/
theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

/-- WHERE A ROW UPDATE LANDS: update `(e, c)` lands at operand element `(n, c')` exactly when the scatter index
    `dst[e, 0]`, read signed, is `n` and `c = c'`. In particular a negative index, or one that is `N` or more, lands
    nowhere. -/
theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

/-- The same with the update index given by its coordinates `(e, b)`. -/
theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

/-- THE ROW SCATTER-ADD READ AT `(n, c)`: the operand's element plus the sum, over the edges `e` whose scatter index
    read signed is `n`, of the updates' element `(e, c)`. The sum over the update indices `(e, b)` that land at
    `(n, c)` is a double sum over `e` and `b`; for each `e` the inner sum has at most the one term `b = c`. -/
theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

/-! ## The same three readings for a record that IS one of these dimension numbers

A program prints its dimension numbers as a record of its own, with literal sizes; such a record is one of the two above
by `rfl`, and these forms take the record and that equation. -/

/-- `rowGather_apply` for any record equal to `rowGatherDims N E D wf`. -/
theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

/-- `rowScatter_resultIdx` for any record equal to `rowScatterDims N E D wf`. -/
theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

/-- `rowScatterAdd_apply` for any record equal to `rowScatterDims N E D wf`. -/
theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.LibVecScatter.lean ====
/-
  A VECTOR ACCUMULATED INTO BY INDEX, READ AT ONE ENTRY.

  The update `zeros(C).at[idx].add(upd)` adds each entry `upd[n]` of a vector of `N` updates into entry `idx[n]` of a vector
  of `C` entries. As a scatter with an add body it has operand `x : [C]`, scatter indices `idx : [N, 1]` (the index
  vector, of length one, lies on axis 1), updates `upd : [N]`, no window axis on the updates, and the operand's one axis
  both inserted and named by the one index component. This file reads it at an entry, generically in the sizes: entry
  `j` of the result is the operand's entry `j` plus the sum of the updates `upd[n]` over exactly those `n` whose index word
  `idx[n, 0]`, read as a SIGNED integer, equals `j`. The index is not clamped: a negative index, or one that is `C` or
  more, equals no `j < C` and so contributes to no entry.
-/
import Idealize.ShloMosaic.PureOps.Ideal
import Idealize.ShloMosaic.PureOps.Ideal.Laws
import Idealize.ShloMosaic.Lib.ValueIdx
import Idealize.ShloMosaic.Lib.ValueIdxRank1
import Mathlib.Data.EReal.Basic
import Mathlib.Algebra.BigOperators.Group.Finset.Basic
import proofs.«406071_j68444598829186_3_alg».proof.Proof.LibRowOps

noncomputable section

open scoped BigOperators

namespace Cert.LibVecScatter

open Idealize.ShloMosaic Idealize.ShloMosaic.ValueIdx

/-- The dimension numbers of `x.at[idx].add(upd)` for a vector `x : [C]`, scatter indices `idx : [N, 1]` and updates
    `upd : [N]`: the updates have no window axis, the operand's axis 0 is inserted and is the one axis the scatter
    index names, the index vector lies on axis 1 of the scatter indices. Stated over any witness `wf` of the
    well-formedness conditions, which are decided on a program's literal sizes. -/
def vecScatterDims (C N : Nat) (wf : ScatterDims.WF (⟨1, ![C]⟩ : Shape) ⟨2, ![N, 1]⟩ ⟨1, ![N]⟩ [] [0] [0] 1) :
    ScatterDims (⟨1, ![C]⟩ : Shape) ⟨2, ![N, 1]⟩ ⟨1, ![N]⟩ where
  updateWindowDims := []
  insertedWindowDims := [0]
  scatterDimsToOperandDims := [0]
  indexVectorDim := 1
  wf := wf

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section
variable {C N w : Nat} (wf : ScatterDims.WF (⟨1, ![C]⟩ : Shape) ⟨2, ![N, 1]⟩ ⟨1, ![N]⟩ [] [0] [0] 1)
  (j : (⟨1, ![N]⟩ : Shape).Idx) (idx : IVec (⟨2, ![N, 1]⟩ : Shape) w)

/-- On the operand's one axis the start of update `n` is the scatter index `idx[n, 0]`, read signed: the axis is the
    first (and only) one the index vector names, so its component is read at position 0 of the index vector, and the
    other coordinate of the scatter-indices index is the update's own coordinate (the updates' one axis is a scatter
    axis). -/
theorem vecScatter_start0 :
    (vecScatterDims C N wf).start j idx 0 = (idx (ix2 (j 0) (0 : Fin 1))).toInt := by
  unfold ScatterDims.start
  rw [dif_pos (show (0 : Fin 1) ∈ (vecScatterDims C N wf).scatterDimsToOperandDims from List.mem_singleton.mpr rfl)]
  have hsi : (vecScatterDims C N wf).siIdx j ⟨List.idxOf (0 : Fin 1) (vecScatterDims C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's one axis, an inserted axis, the window coordinate is `0`. -/
theorem vecScatter_window0 : (vecScatterDims C N wf).window j 0 = 0 := by
  unfold ScatterDims.window
  rw [dif_neg (show (0 : Fin 1) ∉ (vecScatterDims C N wf).sKept from
    fun h => (LibRowOps.mem_kept _ _).mp h (List.mem_singleton.mpr rfl))]

/-- WHERE AN UPDATE LANDS: update `n` lands at operand entry `i` exactly when the scatter index `idx[n, 0]`, read
    signed, is `i`. In particular a negative index, or one that is `C` or more, lands nowhere. -/
theorem vecScatter_resultIdx (i : (⟨1, ![C]⟩ : Shape).Idx) :
    (vecScatterDims C N wf).resultIdx? j idx = some i ↔
      (idx (ix2 (j 0) (0 : Fin 1))).toInt = ((i 0).val : Int) := by
  rw [LibRowOps.resultIdx?_eq_some_iff, Fin.forall_fin_one, vecScatter_start0, vecScatter_window0]
  constructor
  · intro h; simpa using h
  · intro h; simpa using h

end

/-- THE VECTOR SCATTER-ADD READ AT ENTRY `j`: the operand's entry plus the sum over all updates `n` of `upd[n]` where
    the scatter index `idx[n, 0]`, read signed, is `j`, and of `0` where it is not. (The sum over the update indices that land
    at `j` is the sum over all update indices of the update or zero; a rank-1 index is its one coordinate.) -/
theorem vecScatterAdd_apply {C N w : Nat}
    (wf : ScatterDims.WF (⟨1, ![C]⟩ : Shape) ⟨2, ![N, 1]⟩ ⟨1, ![N]⟩ [] [0] [0] 1)
    (x : (⟨1, ![C]⟩ : Shape).Idx → EReal) (idx : IVec (⟨2, ![N, 1]⟩ : Shape) w)
    (upd : (⟨1, ![N]⟩ : Shape).Idx → EReal) (j : Fin C) :
    Ideal.hostScatterAdd (vecScatterDims C N wf) x idx upd (ix1 j)
      = x (ix1 j) + ∑ n : Fin N, if (idx (ix2 n (0 : Fin 1))).toInt = (j.val : Int) then upd (ix1 n) else 0 := by
  unfold Ideal.hostScatterAdd
  congr 1
  rw [Finset.sum_filter, sum_idx1]
  refine Finset.sum_congr rfl fun n _ => ?_
  simp only [vecScatter_resultIdx]
  rfl

/-- The same for any record of dimension numbers that IS `vecScatterDims C N wf` (a program prints its dimension numbers
    as a record of its own, with literal sizes, which is this one by `rfl`). -/
theorem vecScatterAdd_apply_of {C N w : Nat}
    {wf : ScatterDims.WF (⟨1, ![C]⟩ : Shape) ⟨2, ![N, 1]⟩ ⟨1, ![N]⟩ [] [0] [0] 1}
    (d : ScatterDims (⟨1, ![C]⟩ : Shape) ⟨2, ![N, 1]⟩ ⟨1, ![N]⟩) (hd : d = vecScatterDims C N wf)
    (x : (⟨1, ![C]⟩ : Shape).Idx → EReal) (idx : IVec (⟨2, ![N, 1]⟩ : Shape) w)
    (upd : (⟨1, ![N]⟩ : Shape).Idx → EReal) (j : Fin C) :
    Ideal.hostScatterAdd d x idx upd (ix1 j)
      = x (ix1 j) + ∑ n : Fin N, if (idx (ix2 n (0 : Fin 1))).toInt = (j.val : Int) then upd (ix1 n) else 0 := by
  subst hd; exact vecScatterAdd_apply wf x idx upd j

end Cert.LibVecScatter

end
-- ==== Proof.RefValue.lean ====
/-
  THE REFERENCE'S RESULT: the penalty at the two segment statistics.

  The reference computes the residuals of all samples on the flat arrays (the sigmoid spelt 1 / (1 + exp(-l))), adds
  them into 32 entries by environment id with an accumulating scatter (and ones likewise for the counts), and computes the
  penalty from the two. An accumulating scatter's entry e is the operand's entry (zero) plus the sum of the updates whose
  index, read signed, is e; an index that is no environment lands nowhere. Over the extended reals the sigmoid's spelling is
  the one-operation sigmoid, so the residuals are the specification's, and entry e of the two scatters is the
  specification's segment sum and segment count.
-/
import proofs.«406071_j68444598829186_3_alg».proof.Proof.RefRead
import proofs.«406071_j68444598829186_3_alg».proof.Proof.Spec
import proofs.«406071_j68444598829186_3_alg».proof.Proof.Tail
import proofs.«406071_j68444598829186_3_alg».proof.Proof.LibVecScatter
import Idealize.ShloMosaic.Lib.IdealHost

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.ReadP Cert.Irm

/-- The reference's result is the penalty function at its two scatters (the same host operations, in the same order). -/
theorem result_eq {F : FTy → Type} [FloatOps F] (x0 : (⟨S16777216, .f32⟩ : BufTy).Contents (Elt F))
    (x1 x2 : (⟨S16777216, .i32⟩ : BufTy).Contents (Elt F)) :
    val_main_v28 (F := F) x0 x1 x2
      = penalty bcast_S_S32 reducesTo_S32_S_d0 h_S_ (val_main_v11 (F := F) x0 x1 x2) (val_main_v15 (F := F) x2) := by
  unfold penalty val_main_v28 val_main_v27 val_main_v26 val_main_v25 val_main_v24 val_main_v23 val_main_v22
    val_main_v21 val_main_v20 val_main_v19 val_main_v18 val_main_v17 val_main_v16 val_main_call0_v1 val_main_call0_v0
    val_main_cst_10 val_main_cst_9 val_main_cst_8 val_main_cst_7 val_main_cst_6 val_main_cst_5 val_main_cst_4
  rfl

/-- The sums' index array is the id array with a unit axis appended: its entry (n, 0) is the flat array's entry n. -/
private theorem idx_sums (n : Fin 16777216) : idx_main_v10 (ix2 n (0 : Fin 1)) = ix1 n := by
  funext a
  match a with
  | ⟨0, _⟩ => rfl

/-- The counts' index array likewise. -/
private theorem idx_cnts (n : Fin 16777216) : idx_main_v14 (ix2 n (0 : Fin 1)) = ix1 n := by
  funext a
  match a with
  | ⟨0, _⟩ => rfl

/-- The sums' update at sample n is the sample's residual: the reference spells the sigmoid 1 / (1 + exp(-l)), the
    constant's bit pattern is the real number one, and over the extended reals that expression is the one-operation
    sigmoid. -/
private theorem upd_sums (x0 : (⟨S16777216, .f32⟩ : BufTy).Contents (Elt Ideal))
    (x1 : (⟨S16777216, .i32⟩ : BufTy).Contents (Elt Ideal)) (n : Fin 16777216) :
    val_main_v8 (F := Ideal) x0 x1 (ix1 n) = resid (F := Ideal) (x0 (ix1 n)) (x1 (ix1 n)) := by
  rw [val_main_v8_apply, val_main_v7_apply, val_main_v6_apply, val_main_v5_apply, val_main_v4_apply,
    val_main_v3_apply, val_main_v2_apply, val_main_v1_apply, val_main_v0_apply, val_main_cst_apply,
    val_main_cst_0_apply, Ideal.ofBits_def, Ideal.ofBits_one_f32]
  rfl

/-- The counts' update at every sample is one. -/
private theorem upd_cnts (n : Fin 16777216) : val_main_v12 (F := Ideal) (ix1 n) = (1 : EReal) := by
  rw [val_main_v12_apply, val_main_cst_2_apply, Ideal.ofBits_def, Ideal.ofBits_one_f32]

/-- Entry `e` of the sums' scatter is the segment sum of the residuals. -/
theorem sums_apply (x0 : (⟨S16777216, .f32⟩ : BufTy).Contents (Elt Ideal))
    (x1 x2 : (⟨S16777216, .i32⟩ : BufTy).Contents (Elt Ideal)) (e : Fin 32) :
    val_main_v11 (F := Ideal) x0 x1 x2 (ix1 e) = segSum x0 x1 x2 e := by
  unfold val_main_v11 segSum
  rw [Host.scatterAdd, Ideal.hostScatterAdd_def]
  rw [Cert.LibVecScatter.vecScatterAdd_apply_of (wf := scatter_S32_S16777216x1_S16777216_n_0_0_1_wf)
    scatter_S32_S16777216x1_S16777216_n_0_0_1 rfl]
  rw [val_main_v9_apply, val_main_cst_1_apply, Ideal.ofBits_def, Ideal.ofBits_zero_f32, zero_add]
  refine Finset.sum_congr rfl fun n _ => ?_
  rw [val_main_v10_apply, idx_sums, upd_sums]

/-- Entry `e` of the counts' scatter is the segment count. -/
theorem cnts_apply (x2 : (⟨S16777216, .i32⟩ : BufTy).Contents (Elt Ideal)) (e : Fin 32) :
    val_main_v15 (F := Ideal) x2 (ix1 e) = segCnt x2 e := by
  unfold val_main_v15 segCnt
  rw [Host.scatterAdd, Ideal.hostScatterAdd_def]
  rw [Cert.LibVecScatter.vecScatterAdd_apply_of (wf := scatter_S32_S16777216x1_S16777216_n_0_0_1_wf)
    scatter_S32_S16777216x1_S16777216_n_0_0_1 rfl]
  rw [val_main_v13_apply, val_main_cst_3_apply, Ideal.ofBits_def, Ideal.ofBits_zero_f32, zero_add]
  refine Finset.sum_congr rfl fun n _ => ?_
  rw [val_main_v14_apply, idx_cnts, upd_cnts]

end Cert.ReferenceIdeal.RefValue

end
-- ==== Proof.KDefs.lean ====
/-
  WHAT ONE GRID POINT ADDS TO THE TWO ACCUMULATORS.

  At a grid point the body loads a block of 4096 rows by 128 lanes of logits `x0`, targets `x1` and environment ids
  `x2`. For each of the 32 environments e it forms the mask "the id is e" as a float, multiplies the residuals
  (sigmoid(l) - y) * l by it and adds the 4096 rows up lane by lane: one row of 128 lanes per environment, and the same
  with the mask alone for the counts. The 32 rows are laid under one another into a [32, 128] tile, which is added to the
  accumulator's contents `xs`. The two definitions below are these two updated accumulators, written over the body's
  generated payload terms exactly as the body's run leaves them in the two scratch buffers.
-/
import proofs.«406071_j68444598829186_3_alg».proof.Proof.Gen.KernelIdeal.Skeleton

noncomputable section

namespace Cert.KernelIdeal.Body

open Idealize.ShloMosaic Cert.KernelIdeal Cert.KernelIdeal.Gen

variable {F : FTy → Type} [FloatOps F]

/-- The sums accumulator after a point: its contents `xs` before, plus the tile of the 32 per-environment row sums of the
    masked residuals of the point's block. -/
def accS (xs : Vec F S32x128 .f32) (x0 : Vec F S4096x128 .f32) (x1 x2 : Vec F S4096x128 .i32) : FVec F S32x128 .f32 :=
  k0_pay97 (k0_pay6 x2) (k0_pay7 x0 x1)
      (k0_pay9 x0 x1 x2) (k0_pay12 x0 x1 x2) (k0_pay15 x0 x1 x2) (k0_pay18 (k0_pay6 x2) (k0_pay7 x0 x1))
      (k0_pay21 (k0_pay6 x2) (k0_pay7 x0 x1)) (k0_pay24 (k0_pay6 x2) (k0_pay7 x0 x1))
      (k0_pay27 (k0_pay6 x2) (k0_pay7 x0 x1)) (k0_pay30 (k0_pay6 x2) (k0_pay7 x0 x1))
      (k0_pay33 (k0_pay6 x2) (k0_pay7 x0 x1)) (k0_pay36 (k0_pay6 x2) (k0_pay7 x0 x1))
      (k0_pay39 (k0_pay6 x2) (k0_pay7 x0 x1)) (k0_pay42 (k0_pay6 x2) (k0_pay7 x0 x1))
      (k0_pay45 (k0_pay6 x2) (k0_pay7 x0 x1)) (k0_pay48 (k0_pay6 x2) (k0_pay7 x0 x1))
      (k0_pay51 (k0_pay6 x2) (k0_pay7 x0 x1)) (k0_pay54 (k0_pay6 x2) (k0_pay7 x0 x1))
      (k0_pay57 (k0_pay6 x2) (k0_pay7 x0 x1)) (k0_pay60 (k0_pay6 x2) (k0_pay7 x0 x1))
      (k0_pay63 (k0_pay6 x2) (k0_pay7 x0 x1)) (k0_pay66 (k0_pay6 x2) (k0_pay7 x0 x1))
      (k0_pay69 (k0_pay6 x2) (k0_pay7 x0 x1)) (k0_pay72 (k0_pay6 x2) (k0_pay7 x0 x1))
      (k0_pay75 (k0_pay6 x2) (k0_pay7 x0 x1)) (k0_pay78 (k0_pay6 x2) (k0_pay7 x0 x1))
      (k0_pay81 (k0_pay6 x2) (k0_pay7 x0 x1)) (k0_pay84 (k0_pay6 x2) (k0_pay7 x0 x1))
      (k0_pay87 (k0_pay6 x2) (k0_pay7 x0 x1)) (k0_pay90 (k0_pay6 x2) (k0_pay7 x0 x1))
      xs

/-- The counts accumulator after a point: its contents `xs` before, plus the tile of the 32 per-environment row sums of
    the masks of the point's block. -/
def accC (xs : Vec F S32x128 .f32) (x2 : Vec F S4096x128 .i32) : FVec F S32x128 .f32 :=
  k0_pay1
    (k0_pay96 (k0_pay6 x2)
      (k0_pay10 x2) (k0_pay13 x2) (k0_pay16 x2) (k0_pay19 (k0_pay6 x2)) (k0_pay22 (k0_pay6 x2))
      (k0_pay25 (k0_pay6 x2)) (k0_pay28 (k0_pay6 x2)) (k0_pay31 (k0_pay6 x2)) (k0_pay34 (k0_pay6 x2))
      (k0_pay37 (k0_pay6 x2)) (k0_pay40 (k0_pay6 x2)) (k0_pay43 (k0_pay6 x2)) (k0_pay46 (k0_pay6 x2))
      (k0_pay49 (k0_pay6 x2)) (k0_pay52 (k0_pay6 x2)) (k0_pay55 (k0_pay6 x2)) (k0_pay58 (k0_pay6 x2))
      (k0_pay61 (k0_pay6 x2)) (k0_pay64 (k0_pay6 x2)) (k0_pay67 (k0_pay6 x2)) (k0_pay70 (k0_pay6 x2))
      (k0_pay73 (k0_pay6 x2)) (k0_pay76 (k0_pay6 x2)) (k0_pay79 (k0_pay6 x2)) (k0_pay82 (k0_pay6 x2))
      (k0_pay85 (k0_pay6 x2)) (k0_pay88 (k0_pay6 x2)) (k0_pay91 (k0_pay6 x2)))
    xs

end Cert.KernelIdeal.Body

end
-- ==== Proof.KPieces.lean ====
/-
  WHAT EACH CASE OF THE BODY LEAVES IN THE TWO ACCUMULATORS AND IN THE TWO OUTPUT BLOCKS.

  The body has three cases by the position j of the point within its core's 16 points. At j = 0 the accumulators are
  first cleared, so what the point leaves is the update of zero. At 0 < j < 15 it is the update of what the point before
  left. At j = 15 the accumulators are updated the same way and then copied, as [1, 32, 128] blocks, into the two output
  windows. Each statement below says this of the contents the body's run found, for any float instance.

  Why they hold: in every case the last store into an accumulator covers the whole [32, 128] buffer at offset zero, so
  the buffer ends at that store's payload whatever was stored before; every load is of a whole buffer at offset zero, so
  it reads the buffer's contents (at the first point, the zero tile just stored; at the last point, for the output
  blocks, the accumulator just updated). Substituting these reads into the payload gives the stated term.
-/
import proofs.«406071_j68444598829186_3_alg».proof.Proof.Gen.KernelIdeal.Frame
import proofs.«406071_j68444598829186_3_alg».proof.Proof.KDefs
import Idealize.ShloMosaic.Lib.Pipeline.Value

set_option maxRecDepth 16384

noncomputable section

namespace Cert.KernelIdeal.Pieces

open Idealize.ShloMosaic Idealize.ShloMosaic.TcCoe Idealize.ShloMosaic.Tactic Idealize.SL Idealize.SL.Sem
open Cert.KernelIdeal Cert.KernelIdeal.Gen

variable {F : FTy → Type} [FloatOps F]

/-- The zero offset of a two-axis block, as the constant function. -/
private theorem hz : (![0, 0] : Fin 2 → Nat) = fun _ => 0 := funext fun a => by fin_cases a <;> rfl

/-- The zero offset of a three-axis block, as the constant function. -/
private theorem hz3 : (![0, 0, 0] : Fin 3 → Nat) = fun _ => 0 := funext fun a => by fin_cases a <;> rfl

/-- First point of a core: the sums accumulator ends at the update of zero. -/
theorem sout_A_0 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : cond0_0 i) (hc1 : ¬cond0_1 i)
    (x0 : Vec F S4096x128 .f32) (x1 : Vec F S4096x128 .i32) (x2 : Vec F S4096x128 .i32) :
    sout0_A_0 (F := F) c i arg2 harg2 arg3 harg3 arg4 harg4 arg5 harg5 arg6 harg6 arg7 harg7 arg8 harg8 hc0 hc1 x0 x1 x2 = Body.accS (k0_pay4 (F := F)) x0 x1 x2 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S32x128) hz, View.readCov_unit_zero (S := S32x128) _ hz]
  simp only [View.readAt_eq_ld, harg2.read_unread, harg3.read_unread, harg4.read_unread, harg7.read_unread, harg8.read_unread, View.ld_unit_zero (S := S4096x128) hz, View.ld_unit_zero (S := S32x128) hz]
  rfl

/-- First point of a core: the counts accumulator ends at the update of zero. -/
theorem sout_A_1 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : cond0_0 i) (hc1 : ¬cond0_1 i)
    (x0 : Vec F S4096x128 .f32) (x1 : Vec F S4096x128 .i32) (x2 : Vec F S4096x128 .i32) :
    sout0_A_1 (F := F) c i arg2 harg2 arg3 harg3 arg4 harg4 arg5 harg5 arg6 harg6 arg7 harg7 arg8 harg8 hc0 hc1 x0 x1 x2 = Body.accC (k0_pay5 (F := F)) x2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S32x128) hz, View.readCov_unit_zero (S := S32x128) _ hz]
  simp only [View.readAt_eq_ld, harg2.read_unread, harg3.read_unread, harg4.read_unread, harg7.read_unread, harg8.read_unread, View.ld_unit_zero (S := S4096x128) hz, View.ld_unit_zero (S := S32x128) hz]
  rfl

/-- A middle point: the sums accumulator ends at the update of what the point before left. -/
theorem sout_B_0 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : ¬cond0_0 i) (hc1 : ¬cond0_1 i)
    (x0 : Vec F S4096x128 .f32) (x1 : Vec F S4096x128 .i32) (x2 : Vec F S4096x128 .i32) (xs0 : Vec F S32x128 .f32) (xs1 : Vec F S32x128 .f32) :
    sout0_B_0 (F := F) c i arg2 harg2 arg3 harg3 arg4 harg4 arg5 harg5 arg6 harg6 arg7 harg7 arg8 harg8 hc0 hc1 x0 x1 x2 xs0 xs1 = Body.accS xs0 x0 x1 x2 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S4096x128) hz, View.ld_unit_zero (S := S32x128) hz]
  rfl

/-- A middle point: the counts accumulator likewise. -/
theorem sout_B_1 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : ¬cond0_0 i) (hc1 : ¬cond0_1 i)
    (x0 : Vec F S4096x128 .f32) (x1 : Vec F S4096x128 .i32) (x2 : Vec F S4096x128 .i32) (xs0 : Vec F S32x128 .f32) (xs1 : Vec F S32x128 .f32) :
    sout0_B_1 (F := F) c i arg2 harg2 arg3 harg3 arg4 harg4 arg5 harg5 arg6 harg6 arg7 harg7 arg8 harg8 hc0 hc1 x0 x1 x2 xs0 xs1 = Body.accC xs1 x2 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S4096x128) hz, View.ld_unit_zero (S := S32x128) hz]
  rfl

/-- Last point of a core: the sums accumulator ends at the update of what the point before left, -/
theorem sout_C_0 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : ¬cond0_0 i) (hc1 : cond0_1 i)
    (x0 : Vec F S4096x128 .f32) (x1 : Vec F S4096x128 .i32) (x2 : Vec F S4096x128 .i32) (xs0 : Vec F S32x128 .f32) (xs1 : Vec F S32x128 .f32) :
    sout0_C_0 (F := F) c i arg2 harg2 arg3 harg3 arg4 harg4 arg5 harg5 arg6 harg6 arg7 harg7 arg8 harg8 hc0 hc1 x0 x1 x2 xs0 xs1 = Body.accS xs0 x0 x1 x2 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S4096x128) hz, View.ld_unit_zero (S := S32x128) hz]
  rfl

/-- the counts accumulator likewise, -/
theorem sout_C_1 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : ¬cond0_0 i) (hc1 : cond0_1 i)
    (x0 : Vec F S4096x128 .f32) (x1 : Vec F S4096x128 .i32) (x2 : Vec F S4096x128 .i32) (xs0 : Vec F S32x128 .f32) (xs1 : Vec F S32x128 .f32) :
    sout0_C_1 (F := F) c i arg2 harg2 arg3 harg3 arg4 harg4 arg5 harg5 arg6 harg6 arg7 harg7 arg8 harg8 hc0 hc1 x0 x1 x2 xs0 xs1 = Body.accC xs1 x2 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S4096x128) hz, View.ld_unit_zero (S := S32x128) hz]
  rfl

/-- the first output block is the updated sums accumulator with a unit axis in front, -/
theorem out_C_3 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : ¬cond0_0 i) (hc1 : cond0_1 i)
    (x0 : Vec F S4096x128 .f32) (x1 : Vec F S4096x128 .i32) (x2 : Vec F S4096x128 .i32) (xs0 : Vec F S32x128 .f32) (xs1 : Vec F S32x128 .f32) :
    out0_C_3 (F := F) c i arg2 harg2 arg3 harg3 arg4 harg4 arg5 harg5 arg6 harg6 arg7 harg7 arg8 harg8 hc0 hc1 x0 x1 x2 xs0 xs1 = k0_pay2 (Body.accS xs0 x0 x1 x2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readCov_unit_zero (S := S32x128) _ hz, View.readAt_eq_ld, harg2.read_unread, harg3.read_unread, harg4.read_unread, harg7.read_unread, harg8.read_unread, View.ld_unit_zero (S := S4096x128) hz, View.ld_unit_zero (S := S32x128) hz]
  rfl

/-- and the second output block the updated counts accumulator with a unit axis in front. -/
theorem out_C_4 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S4096x128 .i32) (harg4 : arg4.IsWhole) (arg5 : Memref sig .tc .vmem S1x32x128 .f32) (harg5 : arg5.IsWhole) (arg6 : Memref sig .tc .vmem S1x32x128 .f32) (harg6 : arg6.IsWhole) (arg7 : Memref sig .tc .vmem S32x128 .f32) (harg7 : arg7.IsWhole) (arg8 : Memref sig .tc .vmem S32x128 .f32) (harg8 : arg8.IsWhole) (hc0 : ¬cond0_0 i) (hc1 : cond0_1 i)
    (x0 : Vec F S4096x128 .f32) (x1 : Vec F S4096x128 .i32) (x2 : Vec F S4096x128 .i32) (xs0 : Vec F S32x128 .f32) (xs1 : Vec F S32x128 .f32) :
    out0_C_4 (F := F) c i arg2 harg2 arg3 harg3 arg4 harg4 arg5 harg5 arg6 harg6 arg7 harg7 arg8 harg8 hc0 hc1 x0 x1 x2 xs0 xs1 = k0_pay3 (Body.accC xs1 x2) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readCov_unit_zero (S := S32x128) _ hz, View.readAt_eq_ld, harg2.read_unread, harg3.read_unread, harg4.read_unread, harg7.read_unread, harg8.read_unread, View.ld_unit_zero (S := S4096x128) hz, View.ld_unit_zero (S := S32x128) hz]
  rfl

end Cert.KernelIdeal.Pieces

end
-- ==== Proof.KPayload.lean ====
/-
  THE TWO ACCUMULATOR UPDATES READ AT AN ENTRY, over the extended reals.

  Entry (e, lane) of the updated sums accumulator is its entry before plus the sum over the block's 4096 rows of the
  indicator "the id at (row, lane) is e" times the residual at (row, lane); of the updated counts accumulator, its entry
  before plus the sum of the indicators. The tile of the 32 per-environment rows is a concatenation of 32 pieces of one
  row each, so entry (e, lane) of the tile is entry (0, lane) of piece e; a piece is a sum over the row axis with a
  unit axis put in front. The cleared accumulator is zero at every entry, and an output block is the accumulator with a
  unit axis in front.
-/
import proofs.«406071_j68444598829186_3_alg».proof.Proof.KDefs
import proofs.«406071_j68444598829186_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Irm

/-! ## One environment's row, for any environment word

  The 32 rows of a tile differ only in the environment word the ids are compared with. Written once over that word,
  a row of sums is: compare the ids with the word, widen the bit and convert it to a float (the mask), multiply the
  residuals by the mask, add the 4096 rows up lane by lane, and put a unit axis in front; a row of counts is the same
  without the product. -/

section Rows

variable {F : FTy → Type} [FloatOps F]

/-- The mask "the id is e" as a vector of floats: one where the id is the word `e`, zero elsewhere. -/
private def mask (e : BitVec 32) (v9 : IVec S4096x128 32) : FVec F S4096x128 .f32 :=
  sitofp .f32 (extui 32 (cmpi .eq v9 (broadcast S4096x128 e)) natLt_1_32)

/-- Environment `e`'s row of sums: the masked values `v12` added up over the rows, as a [1, 128] vector. -/
private def rowS (e : BitVec 32) (v9 : IVec S4096x128 32) (v12 : FVec F S4096x128 .f32) : FVec F S1x128 .f32 :=
  shapeCast S1x128 (multiReduction .add [0] S128 (mulf (mask (F := F) e v9) v12) 0x00000000#32
    reduces_S4096x128_S128 (.inl rfl) rfl) shapeCasts_S128_S1x128

/-- Environment `e`'s row of counts: the mask added up over the rows, as a [1, 128] vector. -/
private def rowC (e : BitVec 32) (v9 : IVec S4096x128 32) : FVec F S1x128 .f32 :=
  shapeCast S1x128 (multiReduction .add [0] S128 (mask (F := F) e v9) 0x00000000#32
    reduces_S4096x128_S128 (.inl rfl) rfl) shapeCasts_S128_S1x128

end Rows

/-! ## A row read at a lane -/

/-- The index of the [4096, 128] block that the sum over the row axis visits at lane `l` and row `r` is (r, l). -/
private theorem lift_eq (l : Fin 128) (r : Fin 4096) :
    reduces_S4096x128_S128.lift (ix1 l) r = ix2 r l := by
  funext a
  match a with
  | ⟨0, _⟩ => rfl
  | ⟨1, _⟩ => rfl

/-- A [4096, 128] vector added up over its rows and given a unit axis in front reads, at (0, lane), the sum over the
    4096 rows of the vector at (row, lane): the unit axis does not move the lane, and over the extended reals the
    reduction over one axis is the sum over that axis's coordinates. -/
private theorem laneSum (src : FVec Ideal S4096x128 .f32) (hφ : FKind.Formats .f32)
    (hacc : (0x00000000#32 : BitVec 32) = 0x00000000#32) (u : Fin 1) (l : Fin 128) :
    shapeCast S1x128 (multiReduction (F := Ideal) .add [0] S128 src 0x00000000#32 reduces_S4096x128_S128 hφ hacc)
        shapeCasts_S128_S1x128 (ix2 u l)
      = ∑ r : Fin 4096, (src (ix2 r l) : EReal) := by
  refine (shapeCast_a_1a_apply _ shapeCasts_S128_S1x128 u l).trans ?_
  refine (Ideal.multiReduction_add_single src 0x00000000#32 reduces_S4096x128_S128 hφ hacc (ix1 l)).trans ?_
  exact Finset.sum_congr rfl fun r _ => congrArg src (lift_eq l r)

/-- A row of sums at a lane: the sum over the rows of the indicator times the value. The mask at an entry is the
    indicator of the id there by definition, and the product of two vectors is taken entry by entry. -/
private theorem rowS_apply (e : BitVec 32) (v9 : IVec S4096x128 32) (v12 : FVec Ideal S4096x128 .f32) (u : Fin 1)
    (l : Fin 128) :
    rowS (F := Ideal) e v9 v12 (ix2 u l)
      = ∑ r : Fin 4096, ind (F := Ideal) e (v9 (ix2 r l)) * (v12 (ix2 r l) : EReal) :=
  laneSum _ _ _ u l

/-- A row of counts at a lane: the sum over the rows of the indicator. -/
private theorem rowC_apply (e : BitVec 32) (v9 : IVec S4096x128 32) (u : Fin 1) (l : Fin 128) :
    rowC (F := Ideal) e v9 (ix2 u l) = ∑ r : Fin 4096, ind (F := Ideal) e (v9 (ix2 r l)) :=
  laneSum _ _ _ u l

/-! ## The tile read at an entry -/

/-- A [32, 128] tile made of 32 pieces of one row each, laid under one another, reads at (e, lane) piece `e` at
    (0, lane): every piece has extent one along the row axis, so the row coordinate names the piece. -/
private theorem tile_apply (f : Fin 32 → FVec Ideal S1x128 .f32)
    (H : Shape.Concatenates ((List.ofFn fun n : Fin 32 => (⟨S1x128, f n⟩ : (s : Shape) × (s.Idx → Ideal .f32))).map (·.1)) S32x128 0)
    (e : Fin 32) (l : Fin 128) :
    concatenate S32x128 0 (List.ofFn fun n : Fin 32 => (⟨S1x128, f n⟩ : (s : Shape) × (s.Idx → Ideal .f32))) H (ix2 e l)
      = f e (ix2 (0 : Fin 1) l) :=
  concatenate_ofFn_unit_apply (t := S32x128) (s₁ := S1x128) 0 f H rfl rfl (ix2 e l) e rfl (ix2 (0 : Fin 1) l)
    (fun b hb => match b, hb with
      | ⟨0, _⟩, hb => absurd rfl hb
      | ⟨1, _⟩, _ => rfl)

/-! ## The loaded block: ids and residuals -/

/-- The ids the masks compare are the loaded ids themselves (a cast to the same shape changes nothing). -/
private theorem ids_eq (x2 : IVec S4096x128 32) : k0_pay6 (F := Ideal) x2 = x2 := shapeCast_self _ _

/-- The vector the masks multiply is, entry by entry, the residual (sigmoid(l) - y) * l of the loaded logit and target
    (the two casts to the same shape change nothing). -/
private theorem resid_apply (x0 : FVec Ideal S4096x128 .f32) (x1 : IVec S4096x128 32) (i : S4096x128.Idx) :
    k0_pay7 (F := Ideal) x0 x1 i = resid (F := Ideal) (x0 i) (x1 i) := by
  show mulf (subf (logistic (shapeCast S4096x128 x0 shapeCasts_S4096x128_S4096x128))
      (sitofp .f32 (shapeCast S4096x128 x1 shapeCasts_S4096x128_S4096x128)))
      (shapeCast S4096x128 x0 shapeCasts_S4096x128_S4096x128) i = _
  rw [shapeCast_self, shapeCast_self]
  rfl

/-! ## The two updates as "old contents plus a tile of 32 rows" -/

/-- The updated sums accumulator is the old contents plus the tile whose piece n is environment n's row of sums: the
    32 rows the body forms one after another are that one row at the words 0, 1, …, 31. -/
private theorem accS_eq (xs : FVec Ideal S32x128 .f32) (x0 : FVec Ideal S4096x128 .f32) (x1 x2 : IVec S4096x128 32) :
    Body.accS (F := Ideal) xs x0 x1 x2
      = shapeCast S32x128 (addf xs (concatenate S32x128 0
          (List.ofFn fun n : Fin 32 =>
            (⟨S1x128, rowS (F := Ideal) (BitVec.ofNat 32 n.val) (k0_pay6 (F := Ideal) x2) (k0_pay7 x0 x1)⟩ : (s : Shape) × (s.Idx → Ideal .f32)))
          concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0)) shapeCasts_S32x128_S32x128 := rfl

/-- The updated counts accumulator likewise, with the rows of counts. -/
private theorem accC_eq (xs : FVec Ideal S32x128 .f32) (x2 : IVec S4096x128 32) :
    Body.accC (F := Ideal) xs x2
      = shapeCast S32x128 (addf xs (concatenate S32x128 0
          (List.ofFn fun n : Fin 32 =>
            (⟨S1x128, rowC (F := Ideal) (BitVec.ofNat 32 n.val) (k0_pay6 (F := Ideal) x2)⟩ : (s : Shape) × (s.Idx → Ideal .f32)))
          concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0)) shapeCasts_S32x128_S32x128 := rfl

/-- The updated sums accumulator at entry (e, lane). -/
theorem accS_apply (xs : FVec Ideal S32x128 .f32) (x0 : FVec Ideal S4096x128 .f32) (x1 x2 : IVec S4096x128 32)
    (e : Fin 32) (l : Fin 128) :
    Body.accS (F := Ideal) xs x0 x1 x2 (ix2 e l)
      = (xs (ix2 e l) : EReal) + ∑ r : Fin 4096, ind (F := Ideal) (BitVec.ofNat 32 e.val) (x2 (ix2 r l))
          * resid (F := Ideal) (x0 (ix2 r l)) (x1 (ix2 r l)) := by
  rw [accS_eq, shapeCast_self, addf_apply]
  refine congrArg (fun t => (xs (ix2 e l) : EReal) + t) ?_
  refine (tile_apply _ _ e l).trans ((rowS_apply _ _ _ 0 l).trans ?_)
  rw [ids_eq]
  exact Finset.sum_congr rfl fun r _ => congrArg _ (resid_apply x0 x1 (ix2 r l))

/-- The updated counts accumulator at entry (e, lane). -/
theorem accC_apply (xs : FVec Ideal S32x128 .f32) (x2 : IVec S4096x128 32) (e : Fin 32) (l : Fin 128) :
    Body.accC (F := Ideal) xs x2 (ix2 e l)
      = (xs (ix2 e l) : EReal) + ∑ r : Fin 4096, ind (F := Ideal) (BitVec.ofNat 32 e.val) (x2 (ix2 r l)) := by
  rw [accC_eq, shapeCast_self, addf_apply]
  refine congrArg (fun t => (xs (ix2 e l) : EReal) + t) ?_
  refine (tile_apply _ _ e l).trans ((rowC_apply _ _ 0 l).trans ?_)
  rw [ids_eq]

/-- The cleared sums accumulator is zero everywhere. -/
theorem zeroS_apply (j : S32x128.Idx) : k0_pay4 (F := Ideal) j = (0 : EReal) := by
  show shapeCast S32x128 (broadcast S32x128 (Scalar.ofBits (F := Ideal) .f32 0x00000000#32)) shapeCasts_S32x128_S32x128 j = 0
  rw [shapeCast_self]
  exact Ideal.ofBits_zero_f32

/-- The cleared counts accumulator is zero everywhere. -/
theorem zeroC_apply (j : S32x128.Idx) : k0_pay5 (F := Ideal) j = (0 : EReal) := by
  show shapeCast S32x128 (broadcast S32x128 (Scalar.ofBits (F := Ideal) .f32 0x00000000#32)) shapeCasts_S32x128_S32x128 j = 0
  rw [shapeCast_self]
  exact Ideal.ofBits_zero_f32

/-- The first output block at (0, e, lane) is the accumulator at (e, lane). -/
theorem outS_apply (v : FVec Ideal S32x128 .f32) (e : Fin 32) (l : Fin 128) :
    k0_pay2 (F := Ideal) v (ix3 (0 : Fin 1) e l) = v (ix2 e l) :=
  shapeCast_ab_1ab_apply v shapeCasts_S32x128_S1x32x128 0 e l

/-- The second output block at (0, e, lane) is the accumulator at (e, lane). -/
theorem outC_apply (v : FVec Ideal S32x128 .f32) (e : Fin 32) (l : Fin 128) :
    k0_pay3 (F := Ideal) v (ix3 (0 : Fin 1) e l) = v (ix2 e l) :=
  shapeCast_ab_1ab_apply v shapeCasts_S32x128_S1x32x128 0 e l

end Cert.KernelIdeal.Payload

end
-- ==== Proof.KBlocks.lean ====
/-
  THE BLOCKS THE BODY LOADS, READ OFF THE FLAT ARGUMENTS.

  Before the region the three flat arguments of 2^24 entries are reshaped to 131072 rows of 128 lanes (row-major: entry
  (R, lane) is flat entry R * 128 + lane). Grid point t of the 32 fetches, for each of the three, the block of rows
  t * 4096 .. t * 4096 + 4095. So entry (r, lane) of the block at point t is flat entry (t * 4096 + r) * 128 + lane.
-/
import proofs.«406071_j68444598829186_3_alg».proof.Proof.Gen.KernelIdeal.Frame.Runs
import proofs.«406071_j68444598829186_3_alg».proof.Proof.Spec
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Irm

variable {F : FTy → Type} [FloatOps F]
variable (m : (ℓ : Loc nD τ sig) → Buf (Elt F) ℓ)

/-- A grid point as a number below 32. -/
def pt32 (t : Fin cfg0.N) : Fin 32 := ⟨t.val, lt_of_lt_of_eq t.isLt N_0⟩

/-- The three flat arguments on core `c`, at their literal types. -/
abbrev xarr (c : Dev nD) : FVec F S16777216 .f32 := m ((c : Thread nD τ).loc main_arg0)
abbrev yarr (c : Dev nD) : IVec S16777216 32 := m ((c : Thread nD τ).loc main_arg1)
abbrev earr (c : Dev nD) : IVec S16777216 32 := m ((c : Thread nD τ).loc main_arg2)

/-- The three blocks the body loads at point `t`, at their literal types. -/
abbrev xblk (c : Dev nD) (t : Fin cfg0.N) : FVec F S4096x128 .f32 := iblk m c 0 t
abbrev yblk (c : Dev nD) (t : Fin cfg0.N) : IVec S4096x128 32 := iblk m c 1 t
abbrev eblk (c : Dev nD) (t : Fin cfg0.N) : IVec S4096x128 32 := iblk m c 2 t

/-- A flat array of 2^24 entries reshaped to 131072 rows of 128 lanes and read at (R, lane) is the flat entry
    R * 128 + lane: both have the same row-major position. -/
private theorem reshape_read {α : Type} (x : S16777216.Idx → α) (h : S16777216.ShapeCasts S131072x128)
    (R : Fin 131072) (l : Fin 128) (n : Fin 16777216) (hn : n.val = R.val * 128 + l.val) :
    shapeCast S131072x128 x h (ix2 R l) = x (ix1 n) := by
  refine shapeCast_apply x h (ix2 R l) (ix1 n) ?_
  rw [Shape.rowMajor_val_one, Shape.rowMajor_val_two]
  exact hn

/-- When the region is entered, the array of logits it reads is the reshape of the flat logits: the three reshapes before
    the region each write their own result and nothing else. -/
private theorem V_v0 (c : Dev nD) : (V m c main_v0 : S131072x128.Idx → Elt F .f32)
    = shapeCast S131072x128 (m ((c : Thread nD τ).loc main_arg0)) shapeCasts_S16777216_S131072x128 := by
  show StableHlo.after hostOps0 (fun b => m (c, b)) (Proc.devRef .tc main_v0) = _
  after_results
  rfl

/-- The array of targets likewise. -/
private theorem V_v1 (c : Dev nD) : (V m c main_v1 : S131072x128.Idx → Elt F .i32)
    = shapeCast S131072x128 (m ((c : Thread nD τ).loc main_arg1)) shapeCasts_S16777216_S131072x128 := by
  show StableHlo.after hostOps0 (fun b => m (c, b)) (Proc.devRef .tc main_v1) = _
  after_results
  rfl

/-- The array of environment ids likewise. -/
private theorem V_v2 (c : Dev nD) : (V m c main_v2 : S131072x128.Idx → Elt F .i32)
    = shapeCast S131072x128 (m ((c : Thread nD τ).loc main_arg2)) shapeCasts_S16777216_S131072x128 := by
  show StableHlo.after hostOps0 (fun b => m (c, b)) (Proc.devRef .tc main_v2) = _
  after_results
  rfl

/-- The index map of each of the three windows sends grid point (i₀, i₁) to block row 16 * i₀ + i₁, the point's own number,
    and block column 0: checked at each of the 32 points. -/
private theorem index0 : ∀ t : Fin grid0.N, win0_0.index t 0 = t.val ∧ win0_0.index t 1 = 0 := by decide +kernel
private theorem index1 : ∀ t : Fin grid0.N, win0_1.index t 0 = t.val ∧ win0_1.index t 1 = 0 := by decide +kernel
private theorem index2 : ∀ t : Fin grid0.N, win0_2.index t 0 = t.val ∧ win0_2.index t 1 = 0 := by decide +kernel

/-- Row r of the block at point t is a row of the reshaped array: t * 4096 + r is below 131072. -/
private theorem row_lt (t : Fin cfg0.N) (r : Fin 4096) : t.val * 4096 + r.val < 131072 := by
  have h1 : t.val < 32 := lt_of_lt_of_eq t.isLt N_0
  have h2 := r.isLt
  omega

/-- The logits' block at point `t`, entry (r, lane), is the flat logit (t * 4096 + r) * 128 + lane. -/
theorem xblk_apply (c : Dev nD) (t : Fin cfg0.N) (r : Fin 4096) (l : Fin 128) :
    xblk m c t (ix2 r l) = xarr m c (ix1 (flatT (pt32 t) r l)) := by
  have hi := index0 t
  show iblk m c 0 t (ix2 r l) = m ((c : Thread nD τ).loc main_arg0) (ix1 (flatT (pt32 t) r l))
  unfold iblk
  rw [View.read_apply]
  show V m c main_v0 (((cfg0.win 0).blk t).view.emb (ix2 r l)) = _
  -- the block's entry (r, lane) sits at row t * 4096 + r, lane `lane` of the reshaped array
  have he : ((cfg0.win 0).blk t).view.emb (ix2 r l) = ix2 (⟨t.val * 4096 + r.val, row_lt t r⟩ : Fin 131072) l := by
    funext a
    apply Fin.ext
    match a with
    | ⟨0, _⟩ => show win0_0.index t 0 * 4096 + 1 * r.val = t.val * 4096 + r.val; rw [hi.1]; omega
    | ⟨1, _⟩ => show win0_0.index t 1 * 128 + 1 * l.val = l.val; rw [hi.2]; omega
  rw [he, V_v0]
  -- and that entry of the reshape is flat entry (t * 4096 + r) * 128 + lane
  exact reshape_read _ _ _ l _ rfl

/-- The targets' block likewise. -/
theorem yblk_apply (c : Dev nD) (t : Fin cfg0.N) (r : Fin 4096) (l : Fin 128) :
    yblk m c t (ix2 r l) = yarr m c (ix1 (flatT (pt32 t) r l)) := by
  have hi := index1 t
  show iblk m c 1 t (ix2 r l) = m ((c : Thread nD τ).loc main_arg1) (ix1 (flatT (pt32 t) r l))
  unfold iblk
  rw [View.read_apply]
  show V m c main_v1 (((cfg0.win 1).blk t).view.emb (ix2 r l)) = _
  -- the block's entry (r, lane) sits at row t * 4096 + r, lane `lane` of the reshaped array
  have he : ((cfg0.win 1).blk t).view.emb (ix2 r l) = ix2 (⟨t.val * 4096 + r.val, row_lt t r⟩ : Fin 131072) l := by
    funext a
    apply Fin.ext
    match a with
    | ⟨0, _⟩ => show win0_1.index t 0 * 4096 + 1 * r.val = t.val * 4096 + r.val; rw [hi.1]; omega
    | ⟨1, _⟩ => show win0_1.index t 1 * 128 + 1 * l.val = l.val; rw [hi.2]; omega
  rw [he, V_v1]
  -- and that entry of the reshape is flat entry (t * 4096 + r) * 128 + lane
  exact reshape_read _ _ _ l _ rfl

/-- The environment ids' block likewise. -/
theorem eblk_apply (c : Dev nD) (t : Fin cfg0.N) (r : Fin 4096) (l : Fin 128) :
    eblk m c t (ix2 r l) = earr m c (ix1 (flatT (pt32 t) r l)) := by
  have hi := index2 t
  show iblk m c 2 t (ix2 r l) = m ((c : Thread nD τ).loc main_arg2) (ix1 (flatT (pt32 t) r l))
  unfold iblk
  rw [View.read_apply]
  show V m c main_v2 (((cfg0.win 2).blk t).view.emb (ix2 r l)) = _
  -- the block's entry (r, lane) sits at row t * 4096 + r, lane `lane` of the reshaped array
  have he : ((cfg0.win 2).blk t).view.emb (ix2 r l) = ix2 (⟨t.val * 4096 + r.val, row_lt t r⟩ : Fin 131072) l := by
    funext a
    apply Fin.ext
    match a with
    | ⟨0, _⟩ => show win0_2.index t 0 * 4096 + 1 * r.val = t.val * 4096 + r.val; rw [hi.1]; omega
    | ⟨1, _⟩ => show win0_2.index t 1 * 128 + 1 * l.val = l.val; rw [hi.2]; omega
  rw [he, V_v2]
  -- and that entry of the reshape is flat entry (t * 4096 + r) * 128 + lane
  exact reshape_read _ _ _ l _ rfl

end Cert.KernelIdeal.Blocks

end
-- ==== Proof.KTail.lean ====
/-
  AFTER THE REGION: the penalty from the two output arrays.

  The region leaves two arrays of shape [2, 32, 128] (core, environment, lane): the per-core, per-lane partial sums and
  counts. The host lines after the region add each over its core and lane axes, giving the 32 sums and the 32 counts, and
  compute the penalty from those. So the program's result is the penalty function at the two reduced arrays; and over the
  extended reals the reduction of an array A at environment e is the sum over core and lane of A(core, e, lane).
-/
import proofs.«406071_j68444598829186_3_alg».proof.Proof.Gen.KernelIdeal.Frame.Runs
import proofs.«406071_j68444598829186_3_alg».proof.Proof.Tail
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.TailValue

open Idealize.ShloMosaic Idealize.ShloMosaic.TcCoe Idealize.ShloMosaic.ValueIdx Idealize.SL.Sem
open Idealize.ShloMosaic.Pipeline (Dat)
open Cert.KernelIdeal Cert.KernelIdeal.Gen Cert.Irm

variable {F : FTy → Type} [FloatOps F]
variable (m : (ℓ : Loc nD τ sig) → Buf (Elt F) ℓ)

set_option maxHeartbeats 2000000 in
/-- The result buffer after the host lines that follow the region: the penalty at the two output arrays, each added up
    over its core and lane axes. -/
theorem result_eq (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_v18
      = penalty bcast_S_S32 reducesTo_S32_S_d0 h_S_
          (Host.reduceAdd ((dats 0 c).arrAt 3 cfg0.N : FVec F S2x32x128 .f32) (constant S_ .f32 0x00000000#32)
            reducesTo_S2x32x128_S32_d0_2 h_S_)
          (Host.reduceAdd ((dats 0 c).arrAt 4 cfg0.N : FVec F S2x32x128 .f32) (constant S_ .f32 0x00000000#32)
            reducesTo_S2x32x128_S32_d0_2 h_S_) := by
  -- the two arrays the later lines read are the region's two output arrays
  have h3 : Pipeline.withArrays (cfgs 0).spec c (V0 m c) (fun w => (dats 0 c).arrAt w (cfgs 0).N) (Proc.devRef .tc main_v3_0)
      = (dats 0 c).arrAt 3 cfg0.N := Pipeline.withArrays_arr spec0 launch0.win.arr_inj c _ _ 3
  have h4 : Pipeline.withArrays (cfgs 0).spec c (V0 m c) (fun w => (dats 0 c).arrAt w (cfgs 0).N) (Proc.devRef .tc main_v3_1)
      = (dats 0 c).arrAt 4 cfg0.N := Pipeline.withArrays_arr spec0 launch0.win.arr_inj c _ _ 4
  unfold Pipeline.afterTail₀
  simp only [Gen.hostOps1, Gen.hostOps1_1, Gen.hostOps1_2, List.flatten_cons, List.flatten_nil, List.append_nil,
    List.cons_append, List.nil_append]
  generalize hW : Pipeline.withArrays _ _ _ _ = W at h3 h4 ⊢
  -- each line's result is its function at the contents of the buffers it reads; every buffer but the two arrays was
  -- written by an earlier line
  after_results_simp
  simp only [StableHlo.TRef.ofBuf, StableHlo.TRef.toBuf, cast_eq]
  rw [h3, h4]
  generalize ((dats 0 c).arrAt 3 cfg0.N : FVec F S2x32x128 .f32) = A
  generalize ((dats 0 c).arrAt 4 cfg0.N : FVec F S2x32x128 .f32) = B
  -- the same operations in the same order as the penalty
  unfold penalty
  rfl

/-- The place in the [2, 32, 128] array of core `p.1`, environment `e`, lane `p.2`: one-to-one in the pair. -/
private def atEnv (e : Fin 32) : Fin 2 × Fin 128 ↪ S2x32x128.Idx :=
  ⟨fun p => ix3 p.1 e p.2, fun p q h => Prod.ext (congrFun h 0) (congrFun h 2)⟩

/-- Dropping the core and lane coordinates of a place leaves its environment coordinate, so the places that drop to
    environment `e` are exactly the places `(core, e, lane)`. -/
private theorem filter_env (e : Fin 32) :
    Finset.univ.filter (fun i : S2x32x128.Idx => reducesTo_S2x32x128_S32_d0_2.drop i = ix1 e)
      = Finset.univ.map (atEnv e) := by
  ext i
  simp only [Finset.mem_filter, Finset.mem_univ, true_and, Finset.mem_map, atEnv, Function.Embedding.coeFn_mk]
  constructor
  · intro h
    have hv : ((reducesTo_S2x32x128_S32_d0_2.drop i 0 : Fin _) : Nat) = i 1 :=
      Shape.ReducesTo.drop_apply_val_of_eq reducesTo_S2x32x128_S32_d0_2 i 0 1
    have h1 : i 1 = e := Fin.ext (hv.symm.trans (congrArg Fin.val (congrFun h 0)))
    subst h1
    exact ⟨(i 0, i 2), (eq_ix3 i).symm⟩
  · rintro ⟨p, rfl⟩
    funext d
    match d with
    | ⟨0, _⟩ => rfl

/-- Over the extended reals, the sum of a [2, 32, 128] array over its core and lane axes, from zero, at environment `e`. -/
theorem reduce02_apply (A : FVec Ideal S2x32x128 .f32) (e : Fin 32) :
    Host.reduceAdd A (constant (F := Ideal) S_ .f32 0x00000000#32) reducesTo_S2x32x128_S32_d0_2 h_S_ (ix1 e)
      = ∑ cc : Fin 2, ∑ l : Fin 128, (A (ix3 cc e l) : EReal) := by
  show Ideal.hostReduceAdd _ _ _ (ix1 e) = _
  unfold Ideal.hostReduceAdd
  rw [filter_env, Finset.sum_map, Fintype.sum_prod_type]
  have h0 : constant (F := Ideal) S_ .f32 0x00000000#32 (Shape.Idx.first h_S_) = (0 : EReal) := Ideal.ofBits_zero_f32
  rw [h0, zero_add]
  rfl

end Cert.KernelIdeal.TailValue

end
-- ==== Proof.Fold.lean ====
/-
  AN ACCUMULATOR THAT IS CLEARED BEFORE EVERY SIXTEENTH TERM.

  The terms B 0, B 1, B 2, … are added one by one into an accumulator that is cleared just before the terms numbered
  0, 16, 32, …. After the term numbered 16 q + j (j < 16) it holds B (16 q) + … + B (16 q + j); after the term numbered
  16 q + 15, the sum of the q-th run of sixteen. The recursion is the blocked computation's own: at a run's first term
  the accumulator is zero plus the term, afterwards what it held plus the term.
-/
import Mathlib.Data.EReal.Basic
import Mathlib.Algebra.BigOperators.Group.Finset.Basic
import Mathlib.Algebra.BigOperators.Fin

noncomputable section

open scoped BigOperators

namespace Cert.Irm

variable {M : Type*} [AddCommMonoid M]

/-- The accumulator after the term numbered `n`. -/
def fold16 (B : ℕ → M) : ℕ → M
  | 0 => 0 + B 0
  | n + 1 => if (n + 1) % 16 = 0 then 0 + B (n + 1) else fold16 B n + B (n + 1)

/-- At a run's first term the accumulator is zero plus the term. -/
theorem fold16_first (B : ℕ → M) (n : ℕ) (h : n % 16 = 0) : fold16 B n = 0 + B n := by
  cases n with
  | zero => rfl
  | succ n => rw [fold16, if_pos h]

/-- At any other term it is what it held plus the term. -/
theorem fold16_next (B : ℕ → M) (n : ℕ) (h : ¬(n + 1) % 16 = 0) : fold16 B (n + 1) = fold16 B n + B (n + 1) := by
  rw [fold16, if_neg h]

/-- After the `j`-th term of the `q`-th run it holds the run's first `j + 1` terms. -/
theorem fold16_run (B : ℕ → M) (q : ℕ) : ∀ j, j < 16 → fold16 B (16 * q + j) = ∑ k ∈ Finset.range (j + 1), B (16 * q + k)
  | 0, _ => by
    rw [fold16_first B _ (by omega)]
    simp
  | j + 1, hj => by
    have hn : 16 * q + (j + 1) = (16 * q + j) + 1 := by omega
    rw [hn, fold16_next B _ (by omega), fold16_run B q j (by omega), Finset.sum_range_succ _ (j + 1), Nat.add_assoc]

/-- After a run's last term it holds the run's sixteen terms. -/
theorem fold16_last (B : ℕ → M) (q : ℕ) : fold16 B (16 * q + 15) = ∑ k : Fin 16, B (16 * q + k.val) := by
  rw [fold16_run B q 15 (by omega), Finset.sum_range]

end Cert.Irm

end
-- ==== Proof.Stats.lean ====
/-
  THE TWO STATISTICS AS VECTORS OF 32 ENTRIES: entry e is the segment sum, and the segment count, of environment e.
-/
import proofs.«406071_j68444598829186_3_alg».proof.Proof.Spec
import proofs.«406071_j68444598829186_3_alg».proof.Proof.Tail

noncomputable section

namespace Cert.Irm

open Idealize.ShloMosaic

/-- The 32 segment sums of the residuals. -/
def sumsVec (x : Flat EReal) (y env : Flat (BitVec 32)) : FVec Ideal SEnv .f32 := fun i => segSum x y env (i 0)

/-- The 32 segment counts. -/
def cntsVec (env : Flat (BitVec 32)) : FVec Ideal SEnv .f32 := fun i => segCnt env (i 0)

end Cert.Irm

end
-- ==== Proof.KValue.lean ====
/-
  THE KERNEL'S RESULT: the penalty at the two segment statistics.

  Point by point. The body's three blocks at point t are rows t * 4096 .. t * 4096 + 4095 of the flat arguments, so one
  point adds to entry (e, lane) of the sums accumulator the block sum `blockSum t e lane` of the specification (and the
  block count to the counts accumulator). The accumulators are cleared at a core's first point, so after point n they
  hold the accumulator recursion `fold16` of the block sums: by induction on the point, through the three cases of the
  body. At a core's last point 16 c + 15 that is the sum of the core's sixteen blocks, and the body copies it to block c
  of the output arrays; the two blocks cover the arrays, so output array (c, e, lane) is the core's sixteen block sums.
  The host lines after the region add the arrays over core and lane, which is the specification's sum over the whole
  batch taken core by core, lane by lane, block by block (`blockSum_total`): the segment sums and counts; and they compute
  the penalty from the two.
-/
import proofs.«406071_j68444598829186_3_alg».proof.Proof.Gen.KernelIdeal.Frame
import proofs.«406071_j68444598829186_3_alg».proof.Proof.KPieces
import proofs.«406071_j68444598829186_3_alg».proof.Proof.KPayload
import proofs.«406071_j68444598829186_3_alg».proof.Proof.KBlocks
import proofs.«406071_j68444598829186_3_alg».proof.Proof.KTail
import proofs.«406071_j68444598829186_3_alg».proof.Proof.Fold
import proofs.«406071_j68444598829186_3_alg».proof.Proof.Stats
import Idealize.ShloMosaic.Lib.Pipeline.Value

set_option maxRecDepth 16384

noncomputable section

open scoped BigOperators

namespace Cert.KernelIdeal.Value

open Idealize.ShloMosaic Idealize.ShloMosaic.TcCoe Idealize.ShloMosaic.ValueIdx Idealize.SL.Sem
open Idealize.ShloMosaic.Pipeline (Dat)
open Cert.KernelIdeal Cert.KernelIdeal.Gen Cert.Irm Cert.KernelIdeal.Blocks

variable (m : (ℓ : Loc nD τ sig) → Buf (Elt Ideal) ℓ) (ρ : Dev nD → PrngReg)

/-! ## One point -/

/-- The block sum of the point numbered `n` (zero past the grid's 32 points). -/
def BS (c : Dev nD) (e : Fin 32) (l : Fin 128) (n : ℕ) : EReal :=
  if h : n < 32 then blockSum (xarr m c) (yarr m c) (earr m c) ⟨n, h⟩ e l else 0

/-- The block count of the point numbered `n`. -/
def BC (c : Dev nD) (e : Fin 32) (l : Fin 128) (n : ℕ) : EReal :=
  if h : n < 32 then blockCnt (earr m c) ⟨n, h⟩ e l else 0

/-- One point adds its block sum to the sums accumulator. -/
theorem accS_point (c : Dev nD) (t : Fin cfg0.N) (xs : FVec Ideal S32x128 .f32) (e : Fin 32) (l : Fin 128) :
    Body.accS (F := Ideal) xs (xblk m c t) (yblk m c t) (eblk m c t) (ix2 e l)
      = (xs (ix2 e l) : EReal) + BS m c e l t.val := by
  rw [Payload.accS_apply]
  refine congrArg (fun z : EReal => (xs (ix2 e l) : EReal) + z) ?_
  unfold BS
  rw [dif_pos (lt_of_lt_of_eq t.isLt N_0)]
  unfold blockSum
  refine Finset.sum_congr rfl fun r _ => ?_
  rw [xblk_apply, yblk_apply, eblk_apply]
  rfl

/-- One point adds its block count to the counts accumulator. -/
theorem accC_point (c : Dev nD) (t : Fin cfg0.N) (xs : FVec Ideal S32x128 .f32) (e : Fin 32) (l : Fin 128) :
    Body.accC (F := Ideal) xs (eblk m c t) (ix2 e l) = (xs (ix2 e l) : EReal) + BC m c e l t.val := by
  rw [Payload.accC_apply]
  refine congrArg (fun z : EReal => (xs (ix2 e l) : EReal) + z) ?_
  unfold BC
  rw [dif_pos (lt_of_lt_of_eq t.isLt N_0)]
  unfold blockCnt
  refine Finset.sum_congr rfl fun r _ => ?_
  rw [eblk_apply]
  rfl

/-! ## The accumulators after each point, case by case -/

/-- The sums accumulator after point `n`, and the counts accumulator. -/
abbrev scrS (c : Dev nD) (n : ℕ) (h : n < cfg0.N) : FVec Ideal S32x128 .f32 := (outsAt0 m c n h).2.2.1
abbrev scrC (c : Dev nD) (n : ℕ) (h : n < cfg0.N) : FVec Ideal S32x128 .f32 := (outsAt0 m c n h).2.2.2

theorem scrS_A (c : Dev nD) (t : Fin cfg0.N) (h0 : t.val % 16 = 0) (h1 : ¬t.val % 16 = 15) :
    scrS m c t.val t.isLt = Body.accS (k0_pay4 (F := Ideal)) (xblk m c t) (yblk m c t) (eblk m c t) := by
  unfold scrS
  rw [outsAt0_A m c t h0 h1]
  dsimp only
  exact Pieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem scrC_A (c : Dev nD) (t : Fin cfg0.N) (h0 : t.val % 16 = 0) (h1 : ¬t.val % 16 = 15) :
    scrC m c t.val t.isLt = Body.accC (k0_pay5 (F := Ideal)) (eblk m c t) := by
  unfold scrC
  rw [outsAt0_A m c t h0 h1]
  dsimp only
  exact Pieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem scrS_B (c : Dev nD) (t : Fin cfg0.N) (h0 : ¬t.val % 16 = 0) (h1 : ¬t.val % 16 = 15) :
    scrS m c t.val t.isLt
      = Body.accS (scrS m c (t.val - 1) (Nat.lt_of_le_of_lt (Nat.sub_le _ _) t.isLt)) (xblk m c t) (yblk m c t) (eblk m c t) := by
  unfold scrS
  rw [outsAt0_B m c t h0 h1]
  dsimp only
  exact Pieces.sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _

theorem scrC_B (c : Dev nD) (t : Fin cfg0.N) (h0 : ¬t.val % 16 = 0) (h1 : ¬t.val % 16 = 15) :
    scrC m c t.val t.isLt
      = Body.accC (scrC m c (t.val - 1) (Nat.lt_of_le_of_lt (Nat.sub_le _ _) t.isLt)) (eblk m c t) := by
  unfold scrC
  rw [outsAt0_B m c t h0 h1]
  dsimp only
  exact Pieces.sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _

theorem scrS_C (c : Dev nD) (t : Fin cfg0.N) (h0 : ¬t.val % 16 = 0) (h1 : t.val % 16 = 15) :
    scrS m c t.val t.isLt
      = Body.accS (scrS m c (t.val - 1) (Nat.lt_of_le_of_lt (Nat.sub_le _ _) t.isLt)) (xblk m c t) (yblk m c t) (eblk m c t) := by
  unfold scrS
  rw [outsAt0_C m c t h0 h1]
  dsimp only
  exact Pieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

theorem scrC_C (c : Dev nD) (t : Fin cfg0.N) (h0 : ¬t.val % 16 = 0) (h1 : t.val % 16 = 15) :
    scrC m c t.val t.isLt
      = Body.accC (scrC m c (t.val - 1) (Nat.lt_of_le_of_lt (Nat.sub_le _ _) t.isLt)) (eblk m c t) := by
  unfold scrC
  rw [outsAt0_C m c t h0 h1]
  dsimp only
  exact Pieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

/-- At a core's last point the first output block is the updated sums accumulator with a unit axis in front. -/
theorem out3_C (c : Dev nD) (t : Fin cfg0.N) (h0 : ¬t.val % 16 = 0) (h1 : t.val % 16 = 15) :
    (outsAt0 m c t.val t.isLt).1 = k0_pay2 (F := Ideal) (scrS m c t.val t.isLt) := by
  rw [scrS_C m c t h0 h1]
  unfold scrS
  rw [outsAt0_C m c t h0 h1]
  dsimp only
  exact Pieces.out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

/-- And the second output block the updated counts accumulator. -/
theorem out4_C (c : Dev nD) (t : Fin cfg0.N) (h0 : ¬t.val % 16 = 0) (h1 : t.val % 16 = 15) :
    (outsAt0 m c t.val t.isLt).2.1 = k0_pay3 (F := Ideal) (scrC m c t.val t.isLt) := by
  rw [scrC_C m c t h0 h1]
  unfold scrC
  rw [outsAt0_C m c t h0 h1]
  dsimp only
  exact Pieces.out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

/-! ## The induction over the points -/

/-- After point `n` the sums accumulator holds the accumulator recursion of the block sums. -/
theorem scrS_eq (c : Dev nD) (e : Fin 32) (l : Fin 128) :
    ∀ (n : ℕ) (h : n < cfg0.N), (scrS m c n h (ix2 e l) : EReal) = fold16 (BS m c e l) n
  | 0, h => by
    rw [scrS_A m c ⟨0, h⟩ rfl (by show ¬ 0 % 16 = 15; decide), accS_point, Payload.zeroS_apply]
    rfl
  | n + 1, h => by
    have hN : n + 1 < 32 := lt_of_lt_of_eq h N_0
    by_cases h0 : (n + 1) % 16 = 0
    · rw [scrS_A m c ⟨n + 1, h⟩ h0 (by dsimp only; omega), accS_point, Payload.zeroS_apply, fold16_first _ _ h0]
    · rw [fold16_next _ _ h0, ← scrS_eq c e l n (Nat.lt_of_succ_lt h)]
      by_cases h1 : (n + 1) % 16 = 15
      · rw [scrS_C m c ⟨n + 1, h⟩ h0 h1, accS_point]
        rfl
      · rw [scrS_B m c ⟨n + 1, h⟩ h0 h1, accS_point]
        rfl

/-- After point `n` the counts accumulator holds the accumulator recursion of the block counts. -/
theorem scrC_eq (c : Dev nD) (e : Fin 32) (l : Fin 128) :
    ∀ (n : ℕ) (h : n < cfg0.N), (scrC m c n h (ix2 e l) : EReal) = fold16 (BC m c e l) n
  | 0, h => by
    rw [scrC_A m c ⟨0, h⟩ rfl (by show ¬ 0 % 16 = 15; decide), accC_point, Payload.zeroC_apply]
    rfl
  | n + 1, h => by
    have hN : n + 1 < 32 := lt_of_lt_of_eq h N_0
    by_cases h0 : (n + 1) % 16 = 0
    · rw [scrC_A m c ⟨n + 1, h⟩ h0 (by dsimp only; omega), accC_point, Payload.zeroC_apply, fold16_first _ _ h0]
    · rw [fold16_next _ _ h0, ← scrC_eq c e l n (Nat.lt_of_succ_lt h)]
      by_cases h1 : (n + 1) % 16 = 15
      · rw [scrC_C m c ⟨n + 1, h⟩ h0 h1, accC_point]
        rfl
      · rw [scrC_B m c ⟨n + 1, h⟩ h0 h1, accC_point]
        rfl

/-! ## The output arrays -/

/-- The core of a point. -/
def coreOf (t : Fin cfg0.N) : Fin 2 := ⟨t.val / 16, by have := lt_of_lt_of_eq t.isLt N_0; omega⟩

/-- Entry (core, e, lane) of the first output array: the core's sixteen block sums; of the second: its block counts. -/
def G3 (c : Dev nD) : FVec Ideal S2x32x128 .f32 :=
  fun i => ∑ k : Fin 16, blockSum (xarr m c) (yarr m c) (earr m c) (pt (i 0) k) (i 1) (i 2)
def G4 (c : Dev nD) : FVec Ideal S2x32x128 .f32 :=
  fun i => ∑ k : Fin 16, blockCnt (earr m c) (pt (i 0) k) (i 1) (i 2)

/-- At a core's last point the sums accumulator holds the core's sixteen block sums. -/
theorem scrS_last (c : Dev nD) (t : Fin cfg0.N) (h1 : t.val % 16 = 15) (e : Fin 32) (l : Fin 128) :
    (scrS m c t.val t.isLt (ix2 e l) : EReal)
      = ∑ k : Fin 16, blockSum (xarr m c) (yarr m c) (earr m c) (pt (coreOf t) k) e l := by
  have hN : t.val < 32 := lt_of_lt_of_eq t.isLt N_0
  have ht : 16 * (t.val / 16) + 15 = t.val := by omega
  have hl := fold16_last (BS m c e l) (t.val / 16)
  rw [ht] at hl
  rw [scrS_eq, hl]
  refine Finset.sum_congr rfl fun k _ => ?_
  have hk := k.isLt
  unfold BS
  rw [dif_pos (by omega)]
  rfl

/-- And the counts accumulator the core's sixteen block counts. -/
theorem scrC_last (c : Dev nD) (t : Fin cfg0.N) (h1 : t.val % 16 = 15) (e : Fin 32) (l : Fin 128) :
    (scrC m c t.val t.isLt (ix2 e l) : EReal) = ∑ k : Fin 16, blockCnt (earr m c) (pt (coreOf t) k) e l := by
  have hN : t.val < 32 := lt_of_lt_of_eq t.isLt N_0
  have ht : 16 * (t.val / 16) + 15 = t.val := by omega
  have hl := fold16_last (BC m c e l) (t.val / 16)
  rw [ht] at hl
  rw [scrC_eq, hl]
  refine Finset.sum_congr rfl fun k _ => ?_
  have hk := k.isLt
  unfold BC
  rw [dif_pos (by omega)]
  rfl

/-- The output windows' block index is the point's core on the core axis and zero on the other two: decided over
    the grid's 32 points. -/
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-! ## The write-backs and the final arrays -/

/-- Entry (0, e, lane) of what the last point of a core leaves in output window 3's block: the core's sixteen blocks. -/
theorem blk3_at (c : Dev nD) (t : Fin cfg0.N) (h1 : t.val % 16 = 15) (e : Fin 32) (l : Fin 128) :
    (k0_pay2 (F := Ideal) (scrS m c t.val t.isLt) (ix3 (0 : Fin 1) e l) : EReal) = G3 m c (ix3 (coreOf t) e l) := by
  rw [Payload.outS_apply, scrS_last m c t h1]
  rfl

/-- Where entry (0, e, lane) of point `t`'s block of output window 3 sits in the array: core of the point, same
    environment and lane. -/
theorem emb3 (t : Fin cfg0.N) (e : Fin 32) (l : Fin 128) :
    (((cfg0.win 3).blk t).view.emb (ix3 (0 : Fin 1) e l) : S2x32x128.Idx) = ix3 (coreOf t) e l := by
  obtain ⟨e0, e1, e2⟩ := idx3 t
  funext a
  apply Fin.ext
  match a with
  | ⟨0, _⟩ => show win0_3.index t (0 : Fin 3) * 1 + 1 * 0 = t.val / 16; omega
  | ⟨1, _⟩ => show win0_3.index t (1 : Fin 3) * 32 + 1 * e.val = e.val; omega
  | ⟨2, _⟩ => show win0_3.index t (2 : Fin 3) * 128 + 1 * l.val = l.val; omega

/-- WHAT A WRITE-BACK OF WINDOW 3 WRITES is the point's block of the array `G3`. -/
theorem flushed3_eq (c : Dev nD) (t : Fin cfg0.N) (hf : (cfg0.win 3).flush t = true) :
    (dats m 0 c).flushed 3 t = ((cfg0.win 3).blk t).view.read (Elt Ideal) (G3 m c) := by
  have h1 : t.val % 16 = 15 := (flush0_3 t).mp hf
  have h0 : ¬t.val % 16 = 0 := by omega
  show (cfg0.win 3).cut (grid0.coords t) ((dats m 0 c).after 3 t) = _
  rw [after0_3, out3_C m c t h0 h1]
  funext y
  obtain ⟨e, l, rfl⟩ : ∃ (e : Fin 32) (l : Fin 128), y = ix3 (0 : Fin 1) e l := ⟨y 1, y 2, by
    funext a
    match a with
    | ⟨0, _⟩ => exact Fin.ext (by have hy0 : (y 0).val < 1 := (y 0).isLt; show (y 0).val = 0; omega)
    | ⟨1, _⟩ => rfl
    | ⟨2, _⟩ => rfl⟩
  rw [View.read_apply]
  show (k0_pay2 (F := Ideal) (scrS m c t.val t.isLt) (ix3 (0 : Fin 1) e l) : EReal) = G3 m c (((cfg0.win 3).blk t).view.emb (ix3 (0 : Fin 1) e l))
  rw [emb3 t e l]
  exact blk3_at m c t h1 e l

/-- An index of the array is in point `t`'s block of window 3 iff each coordinate is in the block's range on its axis. -/
theorem mem_blk3 (t : Fin cfg0.N) (i : S2x32x128.Idx) :
    i ∈ ((cfg0.win 3).blk t).view.set ↔ ∀ a : Fin 3, win0_3.index t a * S1x32x128.size a ≤ (i a).val ∧ (i a).val < win0_3.index t a * S1x32x128.size a + S1x32x128.size a := by
  show i ∈ ((View.whole main_v3_0).slice (win0_3.rect t)).set ↔ _
  rw [View.set_slice_whole, Rect.mem_set_unit]
  exact Iff.rfl

/-- The last points of the two cores write back blocks that cover the array. -/
theorem cover3 (i : S2x32x128.Idx) :
    ∃ t : Fin cfg0.N, (cfg0.win 3).flush t = true ∧ i ∈ ((cfg0.win 3).blk t).view.set := by
  have hi0 : (i 0).val < 2 := (i 0).isLt
  have hi1 : (i 1).val < 32 := (i 1).isLt
  have hi2 : (i 2).val < 128 := (i 2).isLt
  have hN : cfg0.N = 32 := N_0
  let t : Fin cfg0.N := ⟨16 * (i 0).val + 15, by omega⟩
  have htv : t.val = 16 * (i 0).val + 15 := rfl
  obtain ⟨e0, e1, e2⟩ := idx3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 32 ≤ (i 1).val ∧ (i 1).val < win0_3.index t (1 : Fin 3) * 32 + 32; omega
  | ⟨2, _⟩ => show win0_3.index t (2 : Fin 3) * 128 ≤ (i 2).val ∧ (i 2).val < win0_3.index t (2 : Fin 3) * 128 + 128; omega

/-- So output array one ends holding `G3`. -/
theorem final3 (c : Dev nD) : (dats m 0 c).arrAt 3 cfg0.N = G3 m c :=
  (dats m 0 c).arrAt_eq_of_cover 3 (G3 m c) (flushed3_eq m c) (cover3)

/-- Entry (0, e, lane) of what the last point of a core leaves in output window 4's block: the core's sixteen blocks. -/
theorem blk4_at (c : Dev nD) (t : Fin cfg0.N) (h1 : t.val % 16 = 15) (e : Fin 32) (l : Fin 128) :
    (k0_pay3 (F := Ideal) (scrC m c t.val t.isLt) (ix3 (0 : Fin 1) e l) : EReal) = G4 m c (ix3 (coreOf t) e l) := by
  rw [Payload.outC_apply, scrC_last m c t h1]
  rfl

/-- Where entry (0, e, lane) of point `t`'s block of output window 4 sits in the array: core of the point, same
    environment and lane. -/
theorem emb4 (t : Fin cfg0.N) (e : Fin 32) (l : Fin 128) :
    (((cfg0.win 4).blk t).view.emb (ix3 (0 : Fin 1) e l) : S2x32x128.Idx) = ix3 (coreOf t) e l := by
  obtain ⟨e0, e1, e2⟩ := idx4 t
  funext a
  apply Fin.ext
  match a with
  | ⟨0, _⟩ => show win0_4.index t (0 : Fin 3) * 1 + 1 * 0 = t.val / 16; omega
  | ⟨1, _⟩ => show win0_4.index t (1 : Fin 3) * 32 + 1 * e.val = e.val; omega
  | ⟨2, _⟩ => show win0_4.index t (2 : Fin 3) * 128 + 1 * l.val = l.val; omega

/-- WHAT A WRITE-BACK OF WINDOW 4 WRITES is the point's block of the array `G4`. -/
theorem flushed4_eq (c : Dev nD) (t : Fin cfg0.N) (hf : (cfg0.win 4).flush t = true) :
    (dats m 0 c).flushed 4 t = ((cfg0.win 4).blk t).view.read (Elt Ideal) (G4 m c) := by
  have h1 : t.val % 16 = 15 := (flush0_4 t).mp hf
  have h0 : ¬t.val % 16 = 0 := by omega
  show (cfg0.win 4).cut (grid0.coords t) ((dats m 0 c).after 4 t) = _
  rw [after0_4, out4_C m c t h0 h1]
  funext y
  obtain ⟨e, l, rfl⟩ : ∃ (e : Fin 32) (l : Fin 128), y = ix3 (0 : Fin 1) e l := ⟨y 1, y 2, by
    funext a
    match a with
    | ⟨0, _⟩ => exact Fin.ext (by have hy0 : (y 0).val < 1 := (y 0).isLt; show (y 0).val = 0; omega)
    | ⟨1, _⟩ => rfl
    | ⟨2, _⟩ => rfl⟩
  rw [View.read_apply]
  show (k0_pay3 (F := Ideal) (scrC m c t.val t.isLt) (ix3 (0 : Fin 1) e l) : EReal) = G4 m c (((cfg0.win 4).blk t).view.emb (ix3 (0 : Fin 1) e l))
  rw [emb4 t e l]
  exact blk4_at m c t h1 e l

/-- An index of the array is in point `t`'s block of window 4 iff each coordinate is in the block's range on its axis. -/
theorem mem_blk4 (t : Fin cfg0.N) (i : S2x32x128.Idx) :
    i ∈ ((cfg0.win 4).blk t).view.set ↔ ∀ a : Fin 3, win0_4.index t a * S1x32x128.size a ≤ (i a).val ∧ (i a).val < win0_4.index t a * S1x32x128.size a + S1x32x128.size a := by
  show i ∈ ((View.whole main_v3_1).slice (win0_4.rect t)).set ↔ _
  rw [View.set_slice_whole, Rect.mem_set_unit]
  exact Iff.rfl

/-- The last points of the two cores write back blocks that cover the array. -/
theorem cover4 (i : S2x32x128.Idx) :
    ∃ t : Fin cfg0.N, (cfg0.win 4).flush t = true ∧ i ∈ ((cfg0.win 4).blk t).view.set := by
  have hi0 : (i 0).val < 2 := (i 0).isLt
  have hi1 : (i 1).val < 32 := (i 1).isLt
  have hi2 : (i 2).val < 128 := (i 2).isLt
  have hN : cfg0.N = 32 := N_0
  let t : Fin cfg0.N := ⟨16 * (i 0).val + 15, by omega⟩
  have htv : t.val = 16 * (i 0).val + 15 := rfl
  obtain ⟨e0, e1, e2⟩ := idx4 t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 128 ≤ (i 2).val ∧ (i 2).val < win0_4.index t (2 : Fin 3) * 128 + 128; omega

/-- So output array two ends holding `G4`. -/
theorem final4 (c : Dev nD) : (dats m 0 c).arrAt 4 cfg0.N = G4 m c :=
  (dats m 0 c).arrAt_eq_of_cover 4 (G4 m c) (flushed4_eq m c) (cover4)

/-! ## The result -/

/-- Added over core and lane, the first output array is the segment sums: the sum over the batch taken core by core,
    lane by lane, block by block. -/
theorem sums_eq (c : Dev nD) :
    Host.reduceAdd (G3 m c) (constant (F := Ideal) S_ .f32 0x00000000#32) reducesTo_S2x32x128_S32_d0_2 h_S_
      = sumsVec (xarr m c) (yarr m c) (earr m c) := by
  funext j
  obtain ⟨e, rfl⟩ : ∃ e : Fin 32, j = ix1 e := ⟨j 0, eq_ix1 j⟩
  rw [TailValue.reduce02_apply]
  show (∑ cc : Fin 2, ∑ l : Fin 128, ∑ k : Fin 16, blockSum (xarr m c) (yarr m c) (earr m c) (pt cc k) e l) = segSum (xarr m c) (yarr m c) (earr m c) e
  exact blockSum_total _ _ _ e

/-- And the second the segment counts. -/
theorem cnts_eq (c : Dev nD) :
    Host.reduceAdd (G4 m c) (constant (F := Ideal) S_ .f32 0x00000000#32) reducesTo_S2x32x128_S32_d0_2 h_S_
      = cntsVec (earr m c) := by
  funext j
  obtain ⟨e, rfl⟩ : ∃ e : Fin 32, j = ix1 e := ⟨j 0, eq_ix1 j⟩
  rw [TailValue.reduce02_apply]
  show (∑ cc : Fin 2, ∑ l : Fin 128, ∑ k : Fin 16, blockCnt (earr m c) (pt cc k) e l) = segCnt (earr m c) e
  exact blockCnt_total _ e

/-- THE RUN, READ: every weakly fair execution of the kernel's program terminates with the result buffer at the penalty of
    the segment sums and counts of its arguments, and the arguments unchanged. -/
theorem run : θ_run defs (onTc (τ := τ) (main (F := Ideal))) ⟨m, fun _ => 0, ρ⟩ fun r => ∀ c : Dev nD,
      r.2.mem ((c : Thread nD τ).loc main_v18)
        = penalty bcast_S_S32 reducesTo_S32_S_d0 h_S_ (sumsVec (xarr m c) (yarr m c) (earr m c)) (cntsVec (earr m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v18 (Pipeline.mem_restRefs_of main_v18 (by decide) (by decide))).trans
        ((TailValue.result_eq m (dats m) c).trans (by rw [final3 m c, final4 m c, sums_eq m c, cnts_eq m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.lean ====
/-
  THE CERTIFICATE'S CLAIMS.

  The kernel computes, for each of 32 environments e, the sum S(e) of the residuals (sigmoid(l) - y) * l over the samples
  whose environment id is e and the number C(e) of those samples, and from the two a scalar penalty. It does so blockwise:
  the batch of 2^24 samples laid out as 131072 rows of 128 lanes, 32 grid points of 4096 rows each, 16 per core; per point
  and environment the masked residuals (and the masks) are added over the rows, lane by lane, into accumulators that are
  cleared at a core's first point and written out at its last; the host adds the two cores and the lanes. The reference
  adds the residuals (and ones) into 32 entries by environment id with an accumulating scatter. Over the extended reals
  addition is commutative and associative, so both are the same sums over the same samples (an id that is no environment
  belongs to no sum on either side: the kernel's 32 equality masks match none, the scatter's index lands nowhere), the
  sigmoid is one function in both spellings, and the penalty is computed from S and C by the same host operations. No
  finiteness is needed for any step, so the precondition is not opened.

  The three frames: the kernel's two programs have their whole frame proved by the imported frame modules; the reference's
  is its run with the result dropped. The idealization rewrote nothing, so `preserves` is trivial.
-/
import proofs.«406071_j68444598829186_3_alg».proof.Defs
import proofs.«406071_j68444598829186_3_alg».proof.Proof.Gen.Kernel
import proofs.«406071_j68444598829186_3_alg».proof.Proof.Gen.Kernel.Skeleton
import proofs.«406071_j68444598829186_3_alg».proof.Proof.Gen.Kernel.Launch
import proofs.«406071_j68444598829186_3_alg».proof.Proof.Gen.Kernel.Points
import proofs.«406071_j68444598829186_3_alg».proof.Proof.Gen.Kernel.Frame
import proofs.«406071_j68444598829186_3_alg».proof.Proof.Gen.KernelIdeal
import proofs.«406071_j68444598829186_3_alg».proof.Proof.Gen.KernelIdeal.Skeleton
import proofs.«406071_j68444598829186_3_alg».proof.Proof.Gen.KernelIdeal.Launch
import proofs.«406071_j68444598829186_3_alg».proof.Proof.Gen.KernelIdeal.Points
import proofs.«406071_j68444598829186_3_alg».proof.Proof.Gen.KernelIdeal.Frame
import proofs.«406071_j68444598829186_3_alg».proof.Proof.Gen.ReferenceIdeal
import proofs.«406071_j68444598829186_3_alg».proof.Proof.RefRun
import proofs.«406071_j68444598829186_3_alg».proof.Proof.RefRead
import proofs.«406071_j68444598829186_3_alg».proof.Proof.Gen.Pre_finite_inputs
import proofs.«406071_j68444598829186_3_alg».proof.Proof.RefValue
import proofs.«406071_j68444598829186_3_alg».proof.Proof.KValue
import Idealize.ShloMosaic.Adequacy
import Idealize.ShloMosaic.Init

noncomputable section

namespace Cert.Proof

open Idealize.ShloMosaic Idealize.ShloMosaic.TcCoe Idealize.ShloMosaic.ValueIdx Idealize.SL.Sem Cert.Irm

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference's two scatters, as vectors of 32 entries, are the segment sums and counts of its arguments. -/
theorem ref_sums (x0 : (⟨Cert.ReferenceIdeal.S16777216, .f32⟩ : BufTy).Contents (Elt Ideal))
    (x1 x2 : (⟨Cert.ReferenceIdeal.S16777216, .i32⟩ : BufTy).Contents (Elt Ideal)) :
    Cert.ReferenceIdeal.ReadP.val_main_v11 (F := Ideal) x0 x1 x2 = sumsVec x0 x1 x2 := by
  funext j
  obtain ⟨e, rfl⟩ : ∃ e : Fin 32, j = ix1 e := ⟨j 0, eq_ix1 j⟩
  exact Cert.ReferenceIdeal.RefValue.sums_apply x0 x1 x2 e

theorem ref_cnts (x2 : (⟨Cert.ReferenceIdeal.S16777216, .i32⟩ : BufTy).Contents (Elt Ideal)) :
    Cert.ReferenceIdeal.ReadP.val_main_v15 (F := Ideal) x2 = cntsVec x2 := by
  funext j
  obtain ⟨e, rfl⟩ : ∃ e : Fin 32, j = ix1 e := ⟨j 0, eq_ix1 j⟩
  exact Cert.ReferenceIdeal.RefValue.cnts_apply x2 e

/-- Both programs end at the penalty of the segment sums and counts of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, Cert.ReferenceIdeal.RefValue.result_eq, ref_sums, ref_cnts,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
